-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S5632x2048 : Shape := ⟨2, ![5632, 2048]⟩
abbrev S5632x32 : Shape := ⟨2, ![5632, 32]⟩
abbrev S2048x5632 : Shape := ⟨2, ![2048, 5632]⟩
abbrev S2048x88 : Shape := ⟨2, ![2048, 88]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S5632x32 : S_.BroadcastsInDim S5632x32 (![] : Fin 0 → Fin S5632x32.rank)
  reducesTo_S5632x32_S_d0_1 : S5632x32.ReducesTo [0, 1] S_
  bcast_S_S2048x88 : S_.BroadcastsInDim S2048x88 (![] : Fin 0 → Fin S2048x88.rank)
  reducesTo_S2048x88_S_d0_1 : S2048x88.ReducesTo [0, 1] S_

variable [Facts]

def fn_part1 {F : FTy → Type} [FloatOps F] (main_arg6 : FVec F S5632x32 .f32) (main_arg8 : FVec F S2048x88 .f32) (main_arg9 : FVec F S2048x88 .f32) (main_v13 : IVec S_ 1) (main_v16 : IVec S5632x32 1) : IVec S_ 1 :=
  let main_c_5 : IVec S_ 1 := constantI S_ 1 1#1
  let main_v17 : IVec S_ 1 := (fun x v => Host.reduce IntOp.andi x v reducesTo_S5632x32_S_d0_1 h_S_) main_v16 main_c_5
  let main_v18 : IVec S_ 1 := andi main_v13 main_v17
  let main_v19 : FVec F S5632x32 .f32 := Host.absf main_arg6
  let main_cst_6 : FVec F S_ .f32 := constant S_ .f32 0x7F800000#32
  let main_v20 : FVec F S5632x32 .f32 := broadcastInDim S5632x32 ![] bcast_S_S5632x32 main_cst_6
  let main_v21 : IVec S5632x32 1 := cmpf .olt main_v19 main_v20
  let main_c_7 : IVec S_ 1 := constantI S_ 1 1#1
  let main_v22 : IVec S_ 1 := (fun x v => Host.reduce IntOp.andi x v reducesTo_S5632x32_S_d0_1 h_S_) main_v21 main_c_7
  let main_v23 : IVec S_ 1 := andi main_v18 main_v22
  let main_v24 : FVec F S2048x88 .f32 := Host.absf main_arg8
  let main_cst_8 : FVec F S_ .f32 := constant S_ .f32 0x7F800000#32
  let main_v25 : FVec F S2048x88 .f32 := broadcastInDim S2048x88 ![] bcast_S_S2048x88 main_cst_8
  let main_v26 : IVec S2048x88 1 := cmpf .olt main_v24 main_v25
  let main_c_9 : IVec S_ 1 := constantI S_ 1 1#1
  let main_v27 : IVec S_ 1 := (fun x v => Host.reduce IntOp.andi x v reducesTo_S2048x88_S_d0_1 h_S_) main_v26 main_c_9
  let main_v28 : IVec S_ 1 := andi main_v23 main_v27
  let main_v29 : FVec F S2048x88 .f32 := Host.absf main_arg9
  let main_cst_10 : FVec F S_ .f32 := constant S_ .f32 0x7F800000#32
  let main_v30 : FVec F S2048x88 .f32 := broadcastInDim S2048x88 ![] bcast_S_S2048x88 main_cst_10
  let main_v31 : IVec S2048x88 1 := cmpf .olt main_v29 main_v30
  let main_c_11 : IVec S_ 1 := constantI S_ 1 1#1
  let main_v32 : IVec S_ 1 := (fun x v => Host.reduce IntOp.andi x v reducesTo_S2048x88_S_d0_1 h_S_) main_v31 main_c_11
  let main_v33 : IVec S_ 1 := andi main_v28 main_v32
  main_v33

def fn {F : FTy → Type} [FloatOps F] (main_arg0 : FVec F S32x2048 .f32) (main_arg1 : IVec S5632x2048 32) (main_arg2 : FVec F S5632x32 .f32) (main_arg3 : FVec F S5632x32 .f32) (main_arg4 : IVec S5632x2048 32) (main_arg5 : FVec F S5632x32 .f32) (main_arg6 : FVec F S5632x32 .f32) (main_arg7 : IVec S2048x5632 32) (main_arg8 : FVec F S2048x88 .f32) (main_arg9 : FVec F S2048x88 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S5632x32 .f32 := Host.absf main_arg2
  let main_cst_0 : FVec F S_ .f32 := constant S_ .f32 0x7F800000#32
  let main_v5 : FVec F S5632x32 .f32 := broadcastInDim S5632x32 ![] bcast_S_S5632x32 main_cst_0
  let main_v6 : IVec S5632x32 1 := cmpf .olt main_v4 main_v5
  let main_c_1 : IVec S_ 1 := constantI S_ 1 1#1
  let main_v7 : IVec S_ 1 := (fun x v => Host.reduce IntOp.andi x v reducesTo_S5632x32_S_d0_1 h_S_) main_v6 main_c_1
  let main_v8 : IVec S_ 1 := andi main_v3 main_v7
  let main_v9 : FVec F S5632x32 .f32 := Host.absf main_arg3
  let main_cst_2 : FVec F S_ .f32 := constant S_ .f32 0x7F800000#32
  let main_v10 : FVec F S5632x32 .f32 := broadcastInDim S5632x32 ![] bcast_S_S5632x32 main_cst_2
  let main_v11 : IVec S5632x32 1 := cmpf .olt main_v9 main_v10
  let main_c_3 : IVec S_ 1 := constantI S_ 1 1#1
  let main_v12 : IVec S_ 1 := (fun x v => Host.reduce IntOp.andi x v reducesTo_S5632x32_S_d0_1 h_S_) main_v11 main_c_3
  let main_v13 : IVec S_ 1 := andi main_v8 main_v12
  let main_v14 : FVec F S5632x32 .f32 := Host.absf main_arg5
  let main_cst_4 : FVec F S_ .f32 := constant S_ .f32 0x7F800000#32
  let main_v15 : FVec F S5632x32 .f32 := broadcastInDim S5632x32 ![] bcast_S_S5632x32 main_cst_4
  let main_v16 : IVec S5632x32 1 := cmpf .olt main_v14 main_v15
  fn_part1 (F := F) main_arg6 main_arg8 main_arg9 main_v13 main_v16
-- ==== Kernel.lean ====
abbrev S32x2048 : Shape := ⟨2, ![32, 2048]⟩
abbrev S5632x2048 : Shape := ⟨2, ![5632, 2048]⟩
abbrev S5632x32 : Shape := ⟨2, ![5632, 32]⟩
abbrev S2048x5632 : Shape := ⟨2, ![2048, 5632]⟩
abbrev S2048x88 : Shape := ⟨2, ![2048, 88]⟩
abbrev S32x5632 : Shape := ⟨2, ![32, 5632]⟩
abbrev S512x2048 : Shape := ⟨2, ![512, 2048]⟩
abbrev S512x32 : Shape := ⟨2, ![512, 32]⟩
abbrev S32x512 : Shape := ⟨2, ![32, 512]⟩
abbrev S512x32x64 : Shape := ⟨3, ![512, 32, 64]⟩
abbrev S512x32x1 : Shape := ⟨3, ![512, 32, 1]⟩
abbrev S256x5632 : Shape := ⟨2, ![256, 5632]⟩
abbrev S256x88 : Shape := ⟨2, ![256, 88]⟩
abbrev S32x256 : Shape := ⟨2, ![32, 256]⟩
abbrev S256x88x64 : Shape := ⟨3, ![256, 88, 64]⟩
abbrev S256x88x1 : Shape := ⟨3, ![256, 88, 1]⟩

abbrev nBuf : Space → Nat
  | .hbm => 12
  | .vmem => 24
  | .smem => 0
  | _ => 0

abbrev bufTy : (tb : Table) → Fin (tcTables nBuf tb) → BufTy
  | .hbm, ⟨0, _⟩ => ⟨S32x2048, .f32⟩
  | .hbm, ⟨1, _⟩ => ⟨S5632x2048, .i32⟩
  | .hbm, ⟨2, _⟩ => ⟨S5632x32, .f32⟩
  | .hbm, ⟨3, _⟩ => ⟨S5632x32, .f32⟩
  | .hbm, ⟨4, _⟩ => ⟨S5632x2048, .i32⟩
  | .hbm, ⟨5, _⟩ => ⟨S5632x32, .f32⟩
  | .hbm, ⟨6, _⟩ => ⟨S5632x32, .f32⟩
  | .hbm, ⟨7, _⟩ => ⟨S2048x5632, .i32⟩
  | .hbm, ⟨8, _⟩ => ⟨S2048x88, .f32⟩
  | .hbm, ⟨9, _⟩ => ⟨S2048x88, .f32⟩
  | .hbm, ⟨10, _⟩ => ⟨S32x5632, .bf16⟩
  | .hbm, ⟨11, _⟩ => ⟨S32x2048, .f32⟩
  | .local _ .vmem, ⟨0, _⟩ => ⟨S32x2048, .f32⟩
  | .local _ .vmem, ⟨1, _⟩ => ⟨S512x2048, .i32⟩
  | .local _ .vmem, ⟨2, _⟩ => ⟨S512x2048, .i32⟩
  | .local _ .vmem, ⟨3, _⟩ => ⟨S512x32, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x2048, .i32⟩
  | .local _ .vmem, ⟨8, _⟩ => ⟨S512x2048, .i32⟩
  | .local _ .vmem, ⟨9, _⟩ => ⟨S512x32, .f32⟩
  | .local _ .vmem, ⟨10, _⟩ => ⟨S512x32, .f32⟩
  | .local _ .vmem, ⟨11, _⟩ => ⟨S512x32, .f32⟩
  | .local _ .vmem, ⟨12, _⟩ => ⟨S512x32, .f32⟩
  | .local _ .vmem, ⟨13, _⟩ => ⟨S32x512, .bf16⟩
  | .local _ .vmem, ⟨14, _⟩ => ⟨S32x512, .bf16⟩
  | .local _ .vmem, ⟨15, _⟩ => ⟨S32x5632, .bf16⟩
  | .local _ .vmem, ⟨16, _⟩ => ⟨S256x5632, .i32⟩
  | .local _ .vmem, ⟨17, _⟩ => ⟨S256x5632, .i32⟩
  | .local _ .vmem, ⟨18, _⟩ => ⟨S256x88, .f32⟩
  | .local _ .vmem, ⟨19, _⟩ => ⟨S256x88, .f32⟩
  | .local _ .vmem, ⟨20, _⟩ => ⟨S256x88, .f32⟩
  | .local _ .vmem, ⟨21, _⟩ => ⟨S256x88, .f32⟩
  | .local _ .vmem, ⟨22, _⟩ => ⟨S32x256, .f32⟩
  | .local _ .vmem, ⟨23, _⟩ => ⟨S32x256, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x5632 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x5632 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x88 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x88 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S32x2048_S32x2048_0_0 : ∀ a, (![0, 0] : Fin 2 → Nat) a + S32x2048.size a ≤ S32x2048.size a
  h_S32x2048 : 0 < S32x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x32x64 : S512x2048.ShapeCasts S512x32x64
  inb_S512x32_S512x32_0_0 : ∀ a, (![0, 0] : Fin 2 → Nat) a + S512x32.size a ≤ S512x32.size a
  h_S512x32 : 0 < S512x32.numel
  shapeCasts_S512x32_S512x32x1 : S512x32.ShapeCasts S512x32x1
  broadcasts_S512x32x1_S512x32x64 : S512x32x1.Broadcasts S512x32x64
  shapeCasts_S512x32x64_S512x2048 : S512x32x64.ShapeCasts S512x2048
  inb_S32x512_S32x512_0_0 : ∀ a, (![0, 0] : Fin 2 → Nat) a + S32x512.size a ≤ S32x512.size a
  h_S32x512 : 0 < S32x512.numel
  packedbf16_S32x512_S32x512_0_0 : (Rect.unit (s := S32x512) ![0, 0] S32x512.size inb_S32x512_S32x512_0_0).PackedRows (EltTy.packing .bf16)
  inb_S32x5632_S32x5632_0_0 : ∀ a, (![0, 0] : Fin 2 → Nat) a + S32x5632.size a ≤ S32x5632.size a
  h_S32x5632 : 0 < S32x5632.numel
  shapeCasts_S32x5632_S32x5632 : S32x5632.ShapeCasts S32x5632
  inb_S256x5632_S256x5632_0_0 : ∀ a, (![0, 0] : Fin 2 → Nat) a + S256x5632.size a ≤ S256x5632.size a
  h_S256x5632 : 0 < S256x5632.numel
  shapeCasts_S256x5632_S256x88x64 : S256x5632.ShapeCasts S256x88x64
  inb_S256x88_S256x88_0_0 : ∀ a, (![0, 0] : Fin 2 → Nat) a + S256x88.size a ≤ S256x88.size a
  h_S256x88 : 0 < S256x88.numel
  shapeCasts_S256x88_S256x88x1 : S256x88.ShapeCasts S256x88x1
  broadcasts_S256x88x1_S256x88x64 : S256x88x1.Broadcasts S256x88x64
  shapeCasts_S256x88x64_S256x5632 : S256x88x64.ShapeCasts S256x5632
  inb_S32x256_S32x256_0_0 : ∀ a, (![0, 0] : Fin 2 → Nat) a + S32x256.size a ≤ S32x256.size a
  h_S32x256 : 0 < S32x256.numel
  dot_S32x2048_S512x2048_S32x512_1_1_0_0_n_n_wf : DotDims.WF S32x2048 S512x2048 S32x512 [1] [1] [0] [0] [] []
  dot_S32x5632_S256x5632_S32x256_1_1_0_0_n_n_wf : DotDims.WF S32x5632 S256x5632 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .i32 = 32 ∨ (Rect.block (s := S5632x2048) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S5632x32.size a
  hwx0_2 : ∀ i : grid0.Coords, EltTy.bits .f32 = 32 ∨ (Rect.block (s := S5632x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S5632x32.size a
  hwx0_3 : ∀ i : grid0.Coords, EltTy.bits .f32 = 32 ∨ (Rect.block (s := S5632x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S5632x2048.size a
  hwx0_4 : ∀ i : grid0.Coords, EltTy.bits .i32 = 32 ∨ (Rect.block (s := S5632x2048) S512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x32.size a ≤ S5632x32.size a
  hwx0_5 : ∀ i : grid0.Coords, EltTy.bits .f32 = 32 ∨ (Rect.block (s := S5632x32) S512x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x32.size a ≤ S5632x32.size a
  hwx0_6 : ∀ i : grid0.Coords, EltTy.bits .f32 = 32 ∨ (Rect.block (s := S5632x32) S512x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x512.size a ≤ S32x5632.size a
  hwx0_7 : ∀ i : grid0.Coords, EltTy.bits .bf16 = 32 ∨ (Rect.block (s := S32x5632) S32x512.size (cc0_transform_7 i) (hinb0_7 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x5632.size a ≤ S32x5632.size a
  hwx1_0 : ∀ i : grid1.Coords, EltTy.bits .bf16 = 32 ∨ (Rect.block (s := S32x5632) S32x5632.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x5632.size a ≤ S2048x5632.size a
  hwx1_1 : ∀ i : grid1.Coords, EltTy.bits .i32 = 32 ∨ (Rect.block (s := S2048x5632) S256x5632.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x88.size a ≤ S2048x88.size a
  hwx1_2 : ∀ i : grid1.Coords, EltTy.bits .f32 = 32 ∨ (Rect.block (s := S2048x88) S256x88.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x88.size a ≤ S2048x88.size a
  hwx1_3 : ∀ i : grid1.Coords, EltTy.bits .f32 = 32 ∨ (Rect.block (s := S2048x88) S256x88.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x256.size a ≤ S32x2048.size a
  hwx1_4 : ∀ i : grid1.Coords, EltTy.bits .f32 = 32 ∨ (Rect.block (s := S32x2048) S32x256.size (cc1_transform_4 i) (hinb1_4 i)).WholeWords (EltTy.packing .f32)

variable [Facts₀]

def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf
def dot_S32x5632_S256x5632_S32x256_1_1_0_0_n_n : DotDims S32x5632 S256x5632 S32x256 where
  lhsContracting := [1]
  rhsContracting := [1]
  lhsNonContracting := [0]
  rhsNonContracting := [0]
  lhsBatch := []
  rhsBatch := []
  wf := dot_S32x5632_S256x5632_S32x256_1_1_0_0_n_n_wf

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S32x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S32x5632.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x5632.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x88.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x88.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S32x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x2048 : Shape := ⟨2, ![32, 2048]⟩
abbrev S5632x2048 : Shape := ⟨2, ![5632, 2048]⟩
abbrev S5632x32 : Shape := ⟨2, ![5632, 32]⟩
abbrev S2048x5632 : Shape := ⟨2, ![2048, 5632]⟩
abbrev S2048x88 : Shape := ⟨2, ![2048, 88]⟩
abbrev S5632x32x64 : Shape := ⟨3, ![5632, 32, 64]⟩
abbrev S5632x32x1 : Shape := ⟨3, ![5632, 32, 1]⟩
abbrev S2048x88x64 : Shape := ⟨3, ![2048, 88, 64]⟩
abbrev S2048x88x1 : Shape := ⟨3, ![2048, 88, 1]⟩
abbrev S32x5632 : Shape := ⟨2, ![32, 5632]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S5632x2048, .i32⟩
  | .hbm, ⟨2, _⟩ => ⟨S5632x32, .f32⟩
  | .hbm, ⟨3, _⟩ => ⟨S5632x32, .f32⟩
  | .hbm, ⟨4, _⟩ => ⟨S5632x2048, .i32⟩
  | .hbm, ⟨5, _⟩ => ⟨S5632x32, .f32⟩
  | .hbm, ⟨6, _⟩ => ⟨S5632x32, .f32⟩
  | .hbm, ⟨7, _⟩ => ⟨S2048x5632, .i32⟩
  | .hbm, ⟨8, _⟩ => ⟨S2048x88, .f32⟩
  | .hbm, ⟨9, _⟩ => ⟨S2048x88, .f32⟩
  | .hbm, ⟨10, _⟩ => ⟨S5632x32x64, .i32⟩
  | .hbm, ⟨11, _⟩ => ⟨S5632x32x64, .f32⟩
  | .hbm, ⟨12, _⟩ => ⟨S5632x32x1, .f32⟩
  | .hbm, ⟨13, _⟩ => ⟨S5632x32x64, .f32⟩
  | .hbm, ⟨14, _⟩ => ⟨S5632x32x64, .f32⟩
  | .hbm, ⟨15, _⟩ => ⟨S5632x32x1, .f32⟩
  | .hbm, ⟨16, _⟩ => ⟨S5632x32x64, .f32⟩
  | .hbm, ⟨17, _⟩ => ⟨S5632x32x64, .f32⟩
  | .hbm, ⟨18, _⟩ => ⟨S5632x2048, .f32⟩
  | .hbm, ⟨19, _⟩ => ⟨S5632x32x64, .i32⟩
  | .hbm, ⟨20, _⟩ => ⟨S5632x32x64, .f32⟩
  | .hbm, ⟨21, _⟩ => ⟨S5632x32x1, .f32⟩
  | .hbm, ⟨22, _⟩ => ⟨S5632x32x64, .f32⟩
  | .hbm, ⟨23, _⟩ => ⟨S5632x32x64, .f32⟩
  | .hbm, ⟨24, _⟩ => ⟨S5632x32x1, .f32⟩
  | .hbm, ⟨25, _⟩ => ⟨S5632x32x64, .f32⟩
  | .hbm, ⟨26, _⟩ => ⟨S5632x32x64, .f32⟩
  | .hbm, ⟨27, _⟩ => ⟨S5632x2048, .f32⟩
  | .hbm, ⟨28, _⟩ => ⟨S2048x88x64, .i32⟩
  | .hbm, ⟨29, _⟩ => ⟨S2048x88x64, .f32⟩
  | .hbm, ⟨30, _⟩ => ⟨S2048x88x1, .f32⟩
  | .hbm, ⟨31, _⟩ => ⟨S2048x88x64, .f32⟩
  | .hbm, ⟨32, _⟩ => ⟨S2048x88x64, .f32⟩
  | .hbm, ⟨33, _⟩ => ⟨S2048x88x1, .f32⟩
  | .hbm, ⟨34, _⟩ => ⟨S2048x88x64, .f32⟩
  | .hbm, ⟨35, _⟩ => ⟨S2048x88x64, .f32⟩
  | .hbm, ⟨36, _⟩ => ⟨S2048x5632, .f32⟩
  | .hbm, ⟨37, _⟩ => ⟨S2048x5632, .f32⟩
  | .hbm, ⟨38, _⟩ => ⟨S32x5632, .f32⟩
  | .hbm, ⟨39, _⟩ => ⟨S32x5632, .f32⟩
  | .hbm, ⟨40, _⟩ => ⟨S32x5632, .f32⟩
  | .hbm, ⟨41, _⟩ => ⟨S_, .f32⟩
  | .hbm, ⟨42, _⟩ => ⟨S32x5632, .f32⟩
  | .hbm, ⟨43, _⟩ => ⟨S32x5632, .f32⟩
  | .hbm, ⟨44, _⟩ => ⟨S_, .f32⟩
  | .hbm, ⟨45, _⟩ => ⟨S32x5632, .f32⟩
  | .hbm, ⟨46, _⟩ => ⟨S32x5632, .f32⟩
  | .hbm, ⟨47, _⟩ => ⟨S32x5632, .f32⟩
  | .hbm, ⟨48, _⟩ => ⟨S2048x5632, .f32⟩
  | .hbm, ⟨49, _⟩ => ⟨S32x5632, .f32⟩
  | .hbm, ⟨50, _⟩ => ⟨S32x5632, .f32⟩
  | .hbm, ⟨51, _⟩ => ⟨S5632x2048, .f32⟩
  | .hbm, ⟨52, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  shapeCasts_S5632x2048_S5632x32x64 : S5632x2048.ShapeCasts S5632x32x64
  bcast_S5632x32_S5632x32x1_0_1 : S5632x32.BroadcastsInDim S5632x32x1 (![0, 1] : Fin 2 → Fin S5632x32x1.rank)
  bcast_S5632x32x1_S5632x32x64_0_1_2 : S5632x32x1.BroadcastsInDim S5632x32x64 (![0, 1, 2] : Fin 3 → Fin S5632x32x64.rank)
  shapeCasts_S5632x32x64_S5632x2048 : S5632x32x64.ShapeCasts S5632x2048
  shapeCasts_S2048x5632_S2048x88x64 : S2048x5632.ShapeCasts S2048x88x64
  bcast_S2048x88_S2048x88x1_0_1 : S2048x88.BroadcastsInDim S2048x88x1 (![0, 1] : Fin 2 → Fin S2048x88x1.rank)
  bcast_S2048x88x1_S2048x88x64_0_1_2 : S2048x88x1.BroadcastsInDim S2048x88x64 (![0, 1, 2] : Fin 3 → Fin S2048x88x64.rank)
  shapeCasts_S2048x88x64_S2048x5632 : S2048x88x64.ShapeCasts S2048x5632
  transposes_S5632x2048_S2048x5632_1_0 : S5632x2048.Transposes [1, 0] S2048x5632
  bcast_S_S32x5632 : S_.BroadcastsInDim S32x5632 (![] : Fin 0 → Fin S32x5632.rank)
  transposes_S2048x5632_S5632x2048_1_0 : S2048x5632.Transposes [1, 0] S5632x2048
  dot_S32x2048_S2048x5632_S32x5632_1_0_0_1_n_n_wf : DotDims.WF S32x2048 S2048x5632 S32x5632 [1] [0] [0] [1] [] []
  dot_S32x5632_S5632x2048_S32x2048_1_0_0_1_n_n_wf : DotDims.WF S32x5632 S5632x2048 S32x2048 [1] [0] [0] [1] [] []

variable [Facts₀]

def dot_S32x2048_S2048x5632_S32x5632_1_0_0_1_n_n : DotDims S32x2048 S2048x5632 S32x5632 where
  lhsContracting := [1]
  rhsContracting := [0]
  lhsNonContracting := [0]
  rhsNonContracting := [1]
  lhsBatch := []
  rhsBatch := []
  wf := dot_S32x2048_S2048x5632_S32x5632_1_0_0_1_n_n_wf
def dot_S32x5632_S5632x2048_S32x2048_1_0_0_1_n_n : DotDims S32x5632 S5632x2048 S32x2048 where
  lhsContracting := [1]
  rhsContracting := [0]
  lhsNonContracting := [0]
  rhsNonContracting := [1]
  lhsBatch := []
  rhsBatch := []
  wf := dot_S32x5632_S5632x2048_S32x2048_1_0_0_1_n_n_wf

class Facts : Prop extends Facts₀ where

variable [Facts]
-- ==== Proof.LibGrouped.lean ====
/-
  Columns in groups of a fixed width. A matrix `[a, c]` whose `c = g * e` columns fall into `g` groups of `e`
  is the same data as a rank-3 array `[a, g, e]`: column `k` of a row is entry `k % e` of group `k / e`. A value
  given once per (row, group), `[a, g]`, becomes an array of that rank-3 shape by gaining a unit axis and being
  repeated along it. The lemmas read each of these re-layouts at an index written by its coordinates, for any
  element type.
-/
import Idealize.ShloMosaic.Lib.ValueIdx
import Idealize.ShloMosaic.Lib.Pipeline.Value

namespace Cert.Grouped

open Idealize.ShloMosaic Idealize.ShloMosaic.ValueIdx

variable {α : Type}

/-- A matrix `[a, c]` with `c = g * e`, regrouped as `[a, g, e]`, holds at `(r, p, q)` the matrix's entry
    `(r, p * e + q)`: both positions are the same place in row-major order. -/
theorem shapeCast_ac_age_apply {a g e c : ℕ} (X : (⟨2, ![a, c]⟩ : Shape).Idx → α)
    (h : (⟨2, ![a, c]⟩ : Shape).ShapeCasts ⟨3, ![a, g, e]⟩) (hc : c = g * e)
    (r : Fin a) (p : Fin g) (q : Fin e) (k : Fin c) (hk : k.val = p.val * e + q.val) :
    shapeCast ⟨3, ![a, g, e]⟩ X h (ix3 r p q) = X (ix2 r k) :=
  shapeCast_apply X h _ _ (by
    rw [Shape.rowMajor_val_two, Shape.rowMajor_val_three]
    show r.val * c + k.val = (r.val * g + p.val) * e + q.val
    rw [hk, hc]; ring)

/-- The regrouped array `[a, g, e]` flattened back to `[a, c]` holds at `(r, k)` the array's entry `(r, p, q)`
    whenever `k = p * e + q`. -/
theorem shapeCast_age_ac_apply {a g e c : ℕ} (Y : (⟨3, ![a, g, e]⟩ : Shape).Idx → α)
    (h : (⟨3, ![a, g, e]⟩ : Shape).ShapeCasts ⟨2, ![a, c]⟩) (hc : c = g * e)
    (r : Fin a) (k : Fin c) (p : Fin g) (q : Fin e) (hk : k.val = p.val * e + q.val) :
    shapeCast ⟨2, ![a, c]⟩ Y h (ix2 r k) = Y (ix3 r p q) :=
  shapeCast_apply Y h _ _ (by
    rw [Shape.rowMajor_val_two, Shape.rowMajor_val_three]
    show (r.val * g + p.val) * e + q.val = r.val * c + k.val
    rw [hk, hc]; ring)

/-- One value per (row, group), viewed as `[a, g, 1]`, holds at `(r, p, u)` the value at `(r, p)`. -/
theorem shapeCast_ag_ag1_apply {a g : ℕ} (s : (⟨2, ![a, g]⟩ : Shape).Idx → α)
    (h : (⟨2, ![a, g]⟩ : Shape).ShapeCasts ⟨3, ![a, g, 1]⟩) (r : Fin a) (p : Fin g) (u : Fin 1) :
    shapeCast ⟨3, ![a, g, 1]⟩ s h (ix3 r p u) = s (ix2 r p) :=
  shapeCast_apply s h _ _ (by
    rw [Shape.rowMajor_val_two, Shape.rowMajor_val_three]
    show r.val * g + p.val = (r.val * g + p.val) * 1 + u.val
    have hu : u.val = 0 := by omega
    rw [hu, Nat.mul_one, Nat.add_zero])

/-- `[a, g, 1]` repeated along its unit axis to `[a, g, e]` holds at `(r, p, q)` the value at `(r, p, 0)`. -/
theorem broadcastTo_ag1_age_apply {a g e : ℕ} (v : (⟨3, ![a, g, 1]⟩ : Shape).Idx → α)
    (h : (⟨3, ![a, g, 1]⟩ : Shape).Broadcasts ⟨3, ![a, g, e]⟩) (r : Fin a) (p : Fin g) (q : Fin e) :
    broadcastTo ⟨3, ![a, g, e]⟩ v h (ix3 r p q) = v (ix3 r p (0 : Fin 1)) := by
  refine broadcastTo_apply v h (ix3 r p q) (ix3 r p (0 : Fin 1)) fun ax => ?_
  match ax with
  | ⟨0, _⟩ =>
    show r.val = if a = 1 then 0 else r.val
    split_ifs with h1
    · have := r.isLt; omega
    · rfl
  | ⟨1, _⟩ =>
    show p.val = if g = 1 then 0 else p.val
    split_ifs with h1
    · have := p.isLt; omega
    · rfl
  | ⟨2, _⟩ =>
    show (0 : Fin 1).val = if (1 : ℕ) = 1 then 0 else q.val
    rw [if_pos rfl]; rfl

/-- One value per (row, group) placed into `[a, g, 1]` along the first two axes holds at `(r, p, u)` the value at
    `(r, p)`. -/
theorem broadcastInDim_ag_ag1_apply {a g : ℕ} (s : (⟨2, ![a, g]⟩ : Shape).Idx → α)
    (h : (⟨2, ![a, g]⟩ : Shape).BroadcastsInDim ⟨3, ![a, g, 1]⟩ ![0, 1]) (r : Fin a) (p : Fin g) (u : Fin 1) :
    broadcastInDim ⟨3, ![a, g, 1]⟩ ![0, 1] h s (ix3 r p u) = s (ix2 r p) := by
  refine broadcastInDim_apply _ h s (ix3 r p u) (ix2 r p) fun ax => ?_
  match ax with
  | ⟨0, _⟩ =>
    show r.val = if a = 1 then 0 else r.val
    split_ifs with h1
    · have := r.isLt; omega
    · rfl
  | ⟨1, _⟩ =>
    show p.val = if g = 1 then 0 else p.val
    split_ifs with h1
    · have := p.isLt; omega
    · rfl

/-- `[a, g, 1]` placed into `[a, g, e]` axis by axis holds at `(r, p, q)` the value at `(r, p, 0)`. -/
theorem broadcastInDim_ag1_age_apply {a g e : ℕ} (v : (⟨3, ![a, g, 1]⟩ : Shape).Idx → α)
    (h : (⟨3, ![a, g, 1]⟩ : Shape).BroadcastsInDim ⟨3, ![a, g, e]⟩ ![0, 1, 2]) (r : Fin a) (p : Fin g) (q : Fin e) :
    broadcastInDim ⟨3, ![a, g, e]⟩ ![0, 1, 2] h v (ix3 r p q) = v (ix3 r p (0 : Fin 1)) := by
  refine broadcastInDim_apply _ h v (ix3 r p q) (ix3 r p (0 : Fin 1)) fun ax => ?_
  match ax with
  | ⟨0, _⟩ =>
    show r.val = if a = 1 then 0 else r.val
    split_ifs with h1
    · have := r.isLt; omega
    · rfl
  | ⟨1, _⟩ =>
    show p.val = if g = 1 then 0 else p.val
    split_ifs with h1
    · have := p.isLt; omega
    · rfl
  | ⟨2, _⟩ =>
    show (0 : Fin 1).val = if (1 : ℕ) = 1 then 0 else q.val
    rw [if_pos rfl]; rfl

/-- The two re-layouts composed: a value per (row, group) repeated over its group and laid out as a matrix again
    holds at `(r, k)` the value of `k`'s group, `(r, k / e)`. -/
theorem grouped_value_apply {a g e : ℕ} (s : (⟨2, ![a, g]⟩ : Shape).Idx → α)
    (h1 : (⟨2, ![a, g]⟩ : Shape).ShapeCasts ⟨3, ![a, g, 1]⟩)
    (h2 : (⟨3, ![a, g, 1]⟩ : Shape).Broadcasts ⟨3, ![a, g, e]⟩)
    (r : Fin a) (p : Fin g) (q : Fin e) :
    broadcastTo ⟨3, ![a, g, e]⟩ (shapeCast ⟨3, ![a, g, 1]⟩ s h1) h2 (ix3 r p q) = s (ix2 r p) := by
  rw [broadcastTo_ag1_age_apply, shapeCast_ag_ag1_apply]

end Cert.Grouped
-- ==== Proof.Spec.lean ====
/-
  What the feed-forward layer computes, entry by entry, over the extended reals.
  A weight matrix is stored as integer codes with one scale and one zero point per group of 64 consecutive columns:
  the weight at `(r, k)` is `(code (r, k) - zero (r, k / 64)) * scale (r, k / 64)`. A hidden entry is
  `silu (x · gate row) * (x · up row)` with `silu y = y * (1 / (1 + exp (-y)))`, and an output entry is the hidden
  row against a row of the down weights. Every sum runs over a whole row, so it does not matter how the rows are
  later cut into blocks: a block of rows of the weights gives the same entries as the rows of the whole matrix.
-/
import Idealize.ShloMosaic.Lib.ValueIdx
import Idealize.ShloMosaic.PureOps.Ideal.Laws

noncomputable section

namespace Cert.Spec

open Idealize.ShloMosaic Idealize.ShloMosaic.ValueIdx
open scoped BigOperators

/-- The group of 64 columns that column `k` lies in. -/
def grpOf {g c : ℕ} (hc : c = g * 64) (k : Fin c) : Fin g := ⟨k.val / 64, by have := k.isLt; omega⟩

/-- One dequantized weight: the integer code read as a real number, minus its group's zero point, times its group's
    scale. -/
def deqAt {a g c : ℕ} (hc : c = g * 64) (q : (⟨2, ![a, c]⟩ : Shape).Idx → BitVec 32)
    (s z : (⟨2, ![a, g]⟩ : Shape).Idx → EReal) (r : Fin a) (k : Fin c) : EReal :=
  (FloatOps.sitofp (F := Ideal) .f32 (q (ix2 r k)) - z (ix2 r (grpOf hc k))) * s (ix2 r (grpOf hc k))

/-- Row `t` of `x` against row `r` of the dequantized weights. -/
def rowDot {n a g c : ℕ} (hc : c = g * 64) (x : (⟨2, ![n, c]⟩ : Shape).Idx → EReal)
    (q : (⟨2, ![a, c]⟩ : Shape).Idx → BitVec 32) (s z : (⟨2, ![a, g]⟩ : Shape).Idx → EReal)
    (t : Fin n) (r : Fin a) : EReal :=
  ∑ k : Fin c, x (ix2 t k) * deqAt hc q s z r k

/-- A hidden entry: `silu` of the gate product times the up product. -/
def hiddenAt {n a g c : ℕ} (hc : c = g * 64) (x : (⟨2, ![n, c]⟩ : Shape).Idx → EReal)
    (gq : (⟨2, ![a, c]⟩ : Shape).Idx → BitVec 32) (gs gz : (⟨2, ![a, g]⟩ : Shape).Idx → EReal)
    (uq : (⟨2, ![a, c]⟩ : Shape).Idx → BitVec 32) (us uz : (⟨2, ![a, g]⟩ : Shape).Idx → EReal)
    (t : Fin n) (r : Fin a) : EReal :=
  (rowDot hc x gq gs gz t r * Ideal.logistic (rowDot hc x gq gs gz t r)) * rowDot hc x uq us uz t r

/-- The hidden array, entry by entry. -/
def hiddenArr {n a g c : ℕ} (hc : c = g * 64) (x : (⟨2, ![n, c]⟩ : Shape).Idx → EReal)
    (gq : (⟨2, ![a, c]⟩ : Shape).Idx → BitVec 32) (gs gz : (⟨2, ![a, g]⟩ : Shape).Idx → EReal)
    (uq : (⟨2, ![a, c]⟩ : Shape).Idx → BitVec 32) (us uz : (⟨2, ![a, g]⟩ : Shape).Idx → EReal) :
    (⟨2, ![n, a]⟩ : Shape).Idx → EReal :=
  fun i => hiddenAt (n := n) (a := a) hc x gq gs gz uq us uz (i 0) (i 1)

/-- A hidden array against the dequantized down weights, entry by entry. -/
def downArr {n a g c : ℕ} (hc : c = g * 64) (h : (⟨2, ![n, c]⟩ : Shape).Idx → EReal)
    (q : (⟨2, ![a, c]⟩ : Shape).Idx → BitVec 32) (s z : (⟨2, ![a, g]⟩ : Shape).Idx → EReal) :
    (⟨2, ![n, a]⟩ : Shape).Idx → EReal :=
  fun i => rowDot (n := n) (a := a) hc h q s z (i 0) (i 1)

/-- A dequantized weight depends only on its own row of codes, scales and zero points. -/
theorem deqAt_congr {a a' g c : ℕ} (hc : c = g * 64)
    (q : (⟨2, ![a, c]⟩ : Shape).Idx → BitVec 32) (s z : (⟨2, ![a, g]⟩ : Shape).Idx → EReal)
    (q' : (⟨2, ![a', c]⟩ : Shape).Idx → BitVec 32) (s' z' : (⟨2, ![a', g]⟩ : Shape).Idx → EReal)
    (r : Fin a) (r' : Fin a')
    (hq : ∀ k : Fin c, q (ix2 r k) = q' (ix2 r' k))
    (hs : ∀ p : Fin g, s (ix2 r p) = s' (ix2 r' p)) (hz : ∀ p : Fin g, z (ix2 r p) = z' (ix2 r' p)) (k : Fin c) :
    deqAt hc q s z r k = deqAt hc q' s' z' r' k := by
  unfold deqAt
  rw [hq k, hs (grpOf hc k), hz (grpOf hc k)]

/-- A row product depends only on the two rows it multiplies. -/
theorem rowDot_congr {n n' a a' g c : ℕ} (hc : c = g * 64)
    (x : (⟨2, ![n, c]⟩ : Shape).Idx → EReal) (x' : (⟨2, ![n', c]⟩ : Shape).Idx → EReal)
    (q : (⟨2, ![a, c]⟩ : Shape).Idx → BitVec 32) (s z : (⟨2, ![a, g]⟩ : Shape).Idx → EReal)
    (q' : (⟨2, ![a', c]⟩ : Shape).Idx → BitVec 32) (s' z' : (⟨2, ![a', g]⟩ : Shape).Idx → EReal)
    (t : Fin n) (t' : Fin n') (r : Fin a) (r' : Fin a')
    (hx : ∀ k : Fin c, x (ix2 t k) = x' (ix2 t' k))
    (hq : ∀ k : Fin c, q (ix2 r k) = q' (ix2 r' k))
    (hs : ∀ p : Fin g, s (ix2 r p) = s' (ix2 r' p)) (hz : ∀ p : Fin g, z (ix2 r p) = z' (ix2 r' p)) :
    rowDot hc x q s z t r = rowDot hc x' q' s' z' t' r' := by
  unfold rowDot
  refine Finset.sum_congr rfl fun k _ => ?_
  rw [hx k, deqAt_congr hc q s z q' s' z' r r' hq hs hz k]

/-- A hidden entry depends only on its row of `x` and its row of each of the two weight matrices. -/
theorem hiddenAt_congr {n n' a a' g c : ℕ} (hc : c = g * 64)
    (x : (⟨2, ![n, c]⟩ : Shape).Idx → EReal) (x' : (⟨2, ![n', c]⟩ : Shape).Idx → EReal)
    (gq : (⟨2, ![a, c]⟩ : Shape).Idx → BitVec 32) (gs gz : (⟨2, ![a, g]⟩ : Shape).Idx → EReal)
    (uq : (⟨2, ![a, c]⟩ : Shape).Idx → BitVec 32) (us uz : (⟨2, ![a, g]⟩ : Shape).Idx → EReal)
    (gq' : (⟨2, ![a', c]⟩ : Shape).Idx → BitVec 32) (gs' gz' : (⟨2, ![a', g]⟩ : Shape).Idx → EReal)
    (uq' : (⟨2, ![a', c]⟩ : Shape).Idx → BitVec 32) (us' uz' : (⟨2, ![a', g]⟩ : Shape).Idx → EReal)
    (t : Fin n) (t' : Fin n') (r : Fin a) (r' : Fin a')
    (hx : ∀ k : Fin c, x (ix2 t k) = x' (ix2 t' k))
    (hgq : ∀ k : Fin c, gq (ix2 r k) = gq' (ix2 r' k))
    (hgs : ∀ p : Fin g, gs (ix2 r p) = gs' (ix2 r' p)) (hgz : ∀ p : Fin g, gz (ix2 r p) = gz' (ix2 r' p))
    (huq : ∀ k : Fin c, uq (ix2 r k) = uq' (ix2 r' k))
    (hus : ∀ p : Fin g, us (ix2 r p) = us' (ix2 r' p)) (huz : ∀ p : Fin g, uz (ix2 r p) = uz' (ix2 r' p)) :
    hiddenAt hc x gq gs gz uq us uz t r = hiddenAt hc x' gq' gs' gz' uq' us' uz' t' r' := by
  unfold hiddenAt
  rw [rowDot_congr hc x x' gq gs gz gq' gs' gz' t t' r r' hx hgq hgs hgz,
    rowDot_congr hc x x' uq us uz uq' us' uz' t t' r r' hx huq hus huz]

end Cert.Spec

end
-- ==== Proof.Dequant.lean ====
/-
  The dequantization as the kernels spell it, read at one entry. The integer codes `[a, c]` are converted to reals
  and regrouped as `[a, c / 64, 64]`; the zero points and the scales `[a, c / 64]` each gain a unit axis and are
  repeated over the 64 columns of their group; the regrouped codes minus the zero points, times the scales, are
  flattened back to `[a, c]`. Entry `(r, k)` of the result is `(code (r, k) - zero (r, k / 64)) * scale (r, k / 64)`:
  column `k` is entry `k % 64` of group `k / 64`.
-/
import proofs.«152139_j16587163697466_1_alg».proof.Proof.LibGrouped
import proofs.«152139_j16587163697466_1_alg».proof.Proof.Spec

noncomputable section

namespace Cert.Dequant

open Idealize.ShloMosaic Idealize.ShloMosaic.ValueIdx

theorem deq_layout_apply {a g c : ℕ} (hc : c = g * 64)
    (q : IVec ⟨2, ![a, c]⟩ 32) (s z : FVec Ideal ⟨2, ![a, g]⟩ .f32)
    (h1 : (⟨2, ![a, c]⟩ : Shape).ShapeCasts ⟨3, ![a, g, 64]⟩)
    (h2 : (⟨2, ![a, g]⟩ : Shape).ShapeCasts ⟨3, ![a, g, 1]⟩)
    (h3 : (⟨3, ![a, g, 1]⟩ : Shape).Broadcasts ⟨3, ![a, g, 64]⟩)
    (h4 : (⟨3, ![a, g, 64]⟩ : Shape).ShapeCasts ⟨2, ![a, c]⟩) (r : Fin a) (k : Fin c) :
    (shapeCast ⟨2, ![a, c]⟩
        (mulf (subf (shapeCast ⟨3, ![a, g, 64]⟩ (sitofp (F := Ideal) .f32 q) h1)
            (broadcastTo ⟨3, ![a, g, 64]⟩ (shapeCast ⟨3, ![a, g, 1]⟩ z h2) h3))
          (broadcastTo ⟨3, ![a, g, 64]⟩ (shapeCast ⟨3, ![a, g, 1]⟩ s h2) h3)) h4
      : FVec Ideal ⟨2, ![a, c]⟩ .f32) (ix2 r k)
    = Cert.Spec.deqAt hc q s z r k := by
  have hk : k.val = (Cert.Spec.grpOf hc k).val * 64 + (⟨k.val % 64, Nat.mod_lt _ (by decide)⟩ : Fin 64).val := by
    show k.val = k.val / 64 * 64 + k.val % 64
    omega
  rw [Cert.Grouped.shapeCast_age_ac_apply _ h4 hc r k (Cert.Spec.grpOf hc k) ⟨k.val % 64, Nat.mod_lt _ (by decide)⟩ hk,
    mulf_apply, subf_apply, Cert.Grouped.grouped_value_apply, Cert.Grouped.grouped_value_apply,
    Cert.Grouped.shapeCast_ac_age_apply _ h1 hc r (Cert.Spec.grpOf hc k) ⟨k.val % 64, Nat.mod_lt _ (by decide)⟩ k hk,
    sitofp_apply]
  rfl

/-- The same dequantization as the host spells it: the codes are regrouped first and converted after, and the zero
    points and scales gain their unit axis and are repeated over their group by two in-dimension broadcasts. -/
theorem deq_host_apply {a g c : ℕ} (hc : c = g * 64)
    (q : IVec ⟨2, ![a, c]⟩ 32) (s z : FVec Ideal ⟨2, ![a, g]⟩ .f32)
    (h1 : (⟨2, ![a, c]⟩ : Shape).ShapeCasts ⟨3, ![a, g, 64]⟩)
    (b1 : (⟨2, ![a, g]⟩ : Shape).BroadcastsInDim ⟨3, ![a, g, 1]⟩ ![0, 1])
    (b2 : (⟨3, ![a, g, 1]⟩ : Shape).BroadcastsInDim ⟨3, ![a, g, 64]⟩ ![0, 1, 2])
    (h4 : (⟨3, ![a, g, 64]⟩ : Shape).ShapeCasts ⟨2, ![a, c]⟩) (r : Fin a) (k : Fin c) :
    (shapeCast ⟨2, ![a, c]⟩
        (mulf (subf (sitofp (F := Ideal) .f32 (shapeCast ⟨3, ![a, g, 64]⟩ q h1))
            (broadcastInDim ⟨3, ![a, g, 64]⟩ ![0, 1, 2] b2 (broadcastInDim ⟨3, ![a, g, 1]⟩ ![0, 1] b1 z)))
          (broadcastInDim ⟨3, ![a, g, 64]⟩ ![0, 1, 2] b2 (broadcastInDim ⟨3, ![a, g, 1]⟩ ![0, 1] b1 s))) h4
      : FVec Ideal ⟨2, ![a, c]⟩ .f32) (ix2 r k)
    = Cert.Spec.deqAt hc q s z r k := by
  have hk : k.val = (Cert.Spec.grpOf hc k).val * 64 + (⟨k.val % 64, Nat.mod_lt _ (by decide)⟩ : Fin 64).val := by
    show k.val = k.val / 64 * 64 + k.val % 64
    omega
  rw [Cert.Grouped.shapeCast_age_ac_apply _ h4 hc r k (Cert.Spec.grpOf hc k) ⟨k.val % 64, Nat.mod_lt _ (by decide)⟩ hk,
    mulf_apply, subf_apply, Cert.Grouped.broadcastInDim_ag1_age_apply, Cert.Grouped.broadcastInDim_ag_ag1_apply,
    Cert.Grouped.broadcastInDim_ag1_age_apply, Cert.Grouped.broadcastInDim_ag_ag1_apply, sitofp_apply,
    Cert.Grouped.shapeCast_ac_age_apply _ h1 hc r (Cert.Spec.grpOf hc k) ⟨k.val % 64, Nat.mod_lt _ (by decide)⟩ k hk]
  rfl

end Cert.Dequant

end
-- ==== Proof.KernelBlocks.lean ====
/-
  What each kernel body stores, entry by entry, over the extended reals.
  The first body holds a whole `x` and a block of 512 rows of the gate and up weights; it dequantizes both blocks,
  multiplies `x` against each (a matrix product into a zero accumulator is the plain sum over the shared axis), and
  stores `silu (gate) * up`. The second holds the whole hidden array and a block of 256 rows of the down weights and
  stores their product. Narrowing a float's format is the identity over the extended reals, so the entries are the
  specification's at the block's own rows.
-/
import proofs.«152139_j16587163697466_1_alg».proof.Proof.Gen.KernelIdeal.Skeleton
import proofs.«152139_j16587163697466_1_alg».proof.Proof.Dequant
import Idealize.ShloMosaic.PureOps.Ideal.Laws

noncomputable section

namespace Cert.KernelIdeal.Blocks

open Cert.KernelIdeal Cert.KernelIdeal.Gen Idealize.ShloMosaic Idealize.ShloMosaic.ValueIdx
open scoped BigOperators

/-! ## The first body's matrix product: rows of the left operand against rows of the right -/

theorem lhs0_0 (i : S32x512.Idx) (q : dot_S32x2048_S512x2048_S32x512_1_1_0_0_n_n.contr.Idx) :
    (dot_S32x2048_S512x2048_S32x512_1_1_0_0_n_n.lhsIdx i q 0).val = (i 0).val := by
  unfold DotDims.lhsIdx
  rw [dif_neg (show ¬(0 : Fin S32x2048.rank) ∈ dot_S32x2048_S512x2048_S32x512_1_1_0_0_n_n.lhsBatch by decide), dif_pos (show (0 : Fin S32x2048.rank) ∈ dot_S32x2048_S512x2048_S32x512_1_1_0_0_n_n.lhsNonContracting by decide)]
  rfl
theorem lhs0_1 (i : S32x512.Idx) (q : dot_S32x2048_S512x2048_S32x512_1_1_0_0_n_n.contr.Idx) :
    (dot_S32x2048_S512x2048_S32x512_1_1_0_0_n_n.lhsIdx i q 1).val = (q ⟨0, by decide⟩).val :=
  dot_S32x2048_S512x2048_S32x512_1_1_0_0_n_n.lhsIdx_val_of_single rfl i q
theorem rhs0_0 (i : S32x512.Idx) (q : dot_S32x2048_S512x2048_S32x512_1_1_0_0_n_n.contr.Idx) :
    (dot_S32x2048_S512x2048_S32x512_1_1_0_0_n_n.rhsIdx i q 0).val = (i 1).val := by
  unfold DotDims.rhsIdx
  rw [dif_neg (show ¬(0 : Fin S512x2048.rank) ∈ dot_S32x2048_S512x2048_S32x512_1_1_0_0_n_n.rhsBatch by decide), dif_pos (show (0 : Fin S512x2048.rank) ∈ dot_S32x2048_S512x2048_S32x512_1_1_0_0_n_n.rhsNonContracting by decide)]
  rfl
theorem rhs0_1 (i : S32x512.Idx) (q : dot_S32x2048_S512x2048_S32x512_1_1_0_0_n_n.contr.Idx) :
    (dot_S32x2048_S512x2048_S32x512_1_1_0_0_n_n.rhsIdx i q 1).val = (q ⟨0, by decide⟩).val :=
  dot_S32x2048_S512x2048_S32x512_1_1_0_0_n_n.rhsIdx_val_of_single rfl i q

/-- Entry `(t, r)` of the product into a zero accumulator is row `t` of the left operand against row `r` of the
    right one. -/
theorem mm0_apply (l : FVec Ideal S32x2048 .bf16) (w : FVec Ideal S512x2048 .bf16) (t : Fin 32) (r : Fin 512) :
    matmul dot_S32x2048_S512x2048_S32x512_1_1_0_0_n_n none l w (constant S32x512 .f32 0x00000000#32) (ix2 t r)
      = ∑ k : Fin 2048, l (ix2 t k) * w (ix2 r k) := by
  simp only [matmul]
  rw [Ideal.matmul_constant_zero_apply, ← Equiv.sum_comp (ValueIdx.contrEquiv1 dot_S32x2048_S512x2048_S32x512_1_1_0_0_n_n 2048 rfl rfl).symm]
  refine Finset.sum_congr rfl fun k _ => ?_
  have hk := ValueIdx.contrEquiv1_symm_val dot_S32x2048_S512x2048_S32x512_1_1_0_0_n_n 2048 rfl rfl k
  have el : dot_S32x2048_S512x2048_S32x512_1_1_0_0_n_n.lhsIdx (ix2 t r) ((ValueIdx.contrEquiv1 dot_S32x2048_S512x2048_S32x512_1_1_0_0_n_n 2048 rfl rfl).symm k) = ix2 t k := funext fun a => Fin.ext (by
    match a with
    | ⟨0, _⟩ => exact lhs0_0 _ _
    | ⟨1, _⟩ => exact (lhs0_1 _ _).trans hk)
  have er : dot_S32x2048_S512x2048_S32x512_1_1_0_0_n_n.rhsIdx (ix2 t r) ((ValueIdx.contrEquiv1 dot_S32x2048_S512x2048_S32x512_1_1_0_0_n_n 2048 rfl rfl).symm k) = ix2 r k := funext fun a => Fin.ext (by
    match a with
    | ⟨0, _⟩ => exact rhs0_0 _ _
    | ⟨1, _⟩ => exact (rhs0_1 _ _).trans hk)
  rw [el, er]

/-- `x` against the block of 512 dequantized weight rows, at `(t, r)`. -/
theorem dot0_apply (x : Vec Ideal S32x2048 .f32) (q : Vec Ideal S512x2048 .i32) (s z : Vec Ideal S512x32 .f32)
    (t : Fin 32) (r : Fin 512) :
    matmul dot_S32x2048_S512x2048_S32x512_1_1_0_0_n_n none (truncf .bf16 x Facts₀.bitsLt_bf16_f32)
        (truncf .bf16 (shapeCast S512x2048
            (mulf (subf (shapeCast S512x32x64 (sitofp (F := Ideal) .f32 q) Facts₀.shapeCasts_S512x2048_S512x32x64)
                (broadcastTo S512x32x64 (shapeCast S512x32x1 z Facts₀.shapeCasts_S512x32_S512x32x1) Facts₀.broadcasts_S512x32x1_S512x32x64))
              (broadcastTo S512x32x64 (shapeCast S512x32x1 s Facts₀.shapeCasts_S512x32_S512x32x1) Facts₀.broadcasts_S512x32x1_S512x32x64))
            Facts₀.shapeCasts_S512x32x64_S512x2048) Facts₀.bitsLt_bf16_f32)
        (constant S32x512 .f32 0x00000000#32) (ix2 t r)
      = Cert.Spec.rowDot (n := 32) (a := 512) (g := 32) (c := 2048) rfl x q s z t r := by
  rw [mm0_apply]
  unfold Cert.Spec.rowDot
  refine Finset.sum_congr rfl fun k _ => ?_
  rw [truncf_apply, truncf_apply]
  exact congrArg (x (ix2 t k) * ·) (Cert.Dequant.deq_layout_apply (a := 512) (g := 32) (c := 2048) rfl q s z _ _ _ _ r k)

/-- The first body's stored value at `(t, r)`: the hidden entry of `x`'s row `t` and the block's row `r`. -/
theorem pay0_apply (x : Vec Ideal S32x2048 .f32) (gq : Vec Ideal S512x2048 .i32) (gs gz : Vec Ideal S512x32 .f32)
    (uq : Vec Ideal S512x2048 .i32) (us uz : Vec Ideal S512x32 .f32) (t : Fin 32) (r : Fin 512) :
    k0_pay1 (F := Ideal) x gq gs gz uq us uz (ix2 t r)
      = Cert.Spec.hiddenAt (n := 32) (a := 512) (g := 32) (c := 2048) rfl x gq gs gz uq us uz t r := by
  unfold Cert.Spec.hiddenAt
  rw [← dot0_apply x gq gs gz t r, ← dot0_apply x uq us uz t r]
  rfl

/-! ## The second body's matrix product -/

theorem lhs1_0 (i : S32x256.Idx) (q : dot_S32x5632_S256x5632_S32x256_1_1_0_0_n_n.contr.Idx) :
    (dot_S32x5632_S256x5632_S32x256_1_1_0_0_n_n.lhsIdx i q 0).val = (i 0).val := by
  unfold DotDims.lhsIdx
  rw [dif_neg (show ¬(0 : Fin S32x5632.rank) ∈ dot_S32x5632_S256x5632_S32x256_1_1_0_0_n_n.lhsBatch by decide), dif_pos (show (0 : Fin S32x5632.rank) ∈ dot_S32x5632_S256x5632_S32x256_1_1_0_0_n_n.lhsNonContracting by decide)]
  rfl
theorem lhs1_1 (i : S32x256.Idx) (q : dot_S32x5632_S256x5632_S32x256_1_1_0_0_n_n.contr.Idx) :
    (dot_S32x5632_S256x5632_S32x256_1_1_0_0_n_n.lhsIdx i q 1).val = (q ⟨0, by decide⟩).val :=
  dot_S32x5632_S256x5632_S32x256_1_1_0_0_n_n.lhsIdx_val_of_single rfl i q
theorem rhs1_0 (i : S32x256.Idx) (q : dot_S32x5632_S256x5632_S32x256_1_1_0_0_n_n.contr.Idx) :
    (dot_S32x5632_S256x5632_S32x256_1_1_0_0_n_n.rhsIdx i q 0).val = (i 1).val := by
  unfold DotDims.rhsIdx
  rw [dif_neg (show ¬(0 : Fin S256x5632.rank) ∈ dot_S32x5632_S256x5632_S32x256_1_1_0_0_n_n.rhsBatch by decide), dif_pos (show (0 : Fin S256x5632.rank) ∈ dot_S32x5632_S256x5632_S32x256_1_1_0_0_n_n.rhsNonContracting by decide)]
  rfl
theorem rhs1_1 (i : S32x256.Idx) (q : dot_S32x5632_S256x5632_S32x256_1_1_0_0_n_n.contr.Idx) :
    (dot_S32x5632_S256x5632_S32x256_1_1_0_0_n_n.rhsIdx i q 1).val = (q ⟨0, by decide⟩).val :=
  dot_S32x5632_S256x5632_S32x256_1_1_0_0_n_n.rhsIdx_val_of_single rfl i q

theorem mm1_apply (l : FVec Ideal S32x5632 .bf16) (w : FVec Ideal S256x5632 .bf16) (t : Fin 32) (r : Fin 256) :
    matmul dot_S32x5632_S256x5632_S32x256_1_1_0_0_n_n none l w (constant S32x256 .f32 0x00000000#32) (ix2 t r)
      = ∑ k : Fin 5632, l (ix2 t k) * w (ix2 r k) := by
  simp only [matmul]
  rw [Ideal.matmul_constant_zero_apply, ← Equiv.sum_comp (ValueIdx.contrEquiv1 dot_S32x5632_S256x5632_S32x256_1_1_0_0_n_n 5632 rfl rfl).symm]
  refine Finset.sum_congr rfl fun k _ => ?_
  have hk := ValueIdx.contrEquiv1_symm_val dot_S32x5632_S256x5632_S32x256_1_1_0_0_n_n 5632 rfl rfl k
  have el : dot_S32x5632_S256x5632_S32x256_1_1_0_0_n_n.lhsIdx (ix2 t r) ((ValueIdx.contrEquiv1 dot_S32x5632_S256x5632_S32x256_1_1_0_0_n_n 5632 rfl rfl).symm k) = ix2 t k := funext fun a => Fin.ext (by
    match a with
    | ⟨0, _⟩ => exact lhs1_0 _ _
    | ⟨1, _⟩ => exact (lhs1_1 _ _).trans hk)
  have er : dot_S32x5632_S256x5632_S32x256_1_1_0_0_n_n.rhsIdx (ix2 t r) ((ValueIdx.contrEquiv1 dot_S32x5632_S256x5632_S32x256_1_1_0_0_n_n 5632 rfl rfl).symm k) = ix2 r k := funext fun a => Fin.ext (by
    match a with
    | ⟨0, _⟩ => exact rhs1_0 _ _
    | ⟨1, _⟩ => exact (rhs1_1 _ _).trans hk)
  rw [el, er]

/-- The second body's stored value at `(t, r)`: the hidden row `t` against the block's dequantized row `r`. -/
theorem pay1_apply (h : Vec Ideal S32x5632 .bf16) (q : Vec Ideal S256x5632 .i32) (s z : Vec Ideal S256x88 .f32)
    (t : Fin 32) (r : Fin 256) :
    k1_pay1 (F := Ideal) h q s z (ix2 t r)
      = Cert.Spec.rowDot (n := 32) (a := 256) (g := 88) (c := 5632) rfl h q s z t r := by
  unfold k1_pay1
  rw [shapeCast_self]
  rw [mm1_apply]
  unfold Cert.Spec.rowDot
  refine Finset.sum_congr rfl fun k _ => ?_
  rw [truncf_apply]
  exact congrArg (h (ix2 t k) * ·) (Cert.Dequant.deq_layout_apply (a := 256) (g := 88) (c := 5632) rfl q s z _ _ _ _ r k)

end Cert.KernelIdeal.Blocks

end
-- ==== Proof.KernelValue0.lean ====
/-
  The hidden array after the first pallas_call, entry by entry, from whatever contents the call finds.
  Grid point `t` of 11 holds the whole `x` and rows `512 t … 512 t + 511` of each of the six weight tables, and
  writes back columns `512 t … 512 t + 511` of the hidden array: entry `(p, r)` of its block is the hidden entry
  `(p, 512 t + r)`, because a hidden entry only reads row `p` of `x` and row `512 t + r` of the tables. The eleven
  column blocks tile the array, so after the call it is the specification's hidden array everywhere.
-/
import proofs.«152139_j16587163697466_1_alg».proof.Proof.Gen.KernelIdeal.Frame
import proofs.«152139_j16587163697466_1_alg».proof.Proof.KernelBlocks
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Where each window's block sits, decided over the grid -/

theorem idx_w0 : ∀ t : Fin cfg0.N, win0_0.index t (0 : Fin 2) = 0 ∧ win0_0.index t (1 : Fin 2) = 0 :=
  (by decide +kernel : ∀ t : Fin grid0.N, _)
theorem idx_w1 : ∀ t : Fin cfg0.N, win0_1.index t (0 : Fin 2) = t.val ∧ win0_1.index t (1 : Fin 2) = 0 :=
  (by decide +kernel : ∀ t : Fin grid0.N, _)
theorem idx_w2 : ∀ t : Fin cfg0.N, win0_2.index t (0 : Fin 2) = t.val ∧ win0_2.index t (1 : Fin 2) = 0 :=
  (by decide +kernel : ∀ t : Fin grid0.N, _)
theorem idx_w3 : ∀ t : Fin cfg0.N, win0_3.index t (0 : Fin 2) = t.val ∧ win0_3.index t (1 : Fin 2) = 0 :=
  (by decide +kernel : ∀ t : Fin grid0.N, _)
theorem idx_w4 : ∀ t : Fin cfg0.N, win0_4.index t (0 : Fin 2) = t.val ∧ win0_4.index t (1 : Fin 2) = 0 :=
  (by decide +kernel : ∀ t : Fin grid0.N, _)
theorem idx_w5 : ∀ t : Fin cfg0.N, win0_5.index t (0 : Fin 2) = t.val ∧ win0_5.index t (1 : Fin 2) = 0 :=
  (by decide +kernel : ∀ t : Fin grid0.N, _)
theorem idx_w6 : ∀ t : Fin cfg0.N, win0_6.index t (0 : Fin 2) = t.val ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = t.val :=
  (by decide +kernel : ∀ t : Fin grid0.N, _)

/-! ## Each input block as rows of its array -/

/-- The block of `x` is all of `x`. -/
theorem blk_x (c : Dev nD) (t : Fin cfg0.N) (p P : Fin 32) (hP : P.val = p.val) (k : Fin 2048) :
    (iblk0 V c 0 t : S32x2048.Idx → EReal) (ix2 p k) = (V c main_arg0 : S32x2048.Idx → EReal) (ix2 P k) := by
  have hi := idx_w0 t
  unfold iblk0
  rw [View.read_apply]
  refine congrArg (V c main_arg0 : S32x2048.Idx → EReal) (funext fun a => Fin.ext ?_)
  match a with
  | ⟨0, _⟩ => show win0_0.index t (0 : Fin 2) * 32 + 1 * p.val = P.val; rw [hi.1, hP]; omega
  | ⟨1, _⟩ => show win0_0.index t (1 : Fin 2) * 2048 + 1 * k.val = k.val; rw [hi.2]; omega

/-- Row `r` of the gate codes' block is row `512 t + r` of the gate codes. -/
theorem blk_gq (c : Dev nD) (t : Fin cfg0.N) (r : Fin 512) (R : Fin 5632) (hR : R.val = t.val * 512 + r.val) (k : Fin 2048) :
    (iblk0 V c 1 t : S512x2048.Idx → BitVec 32) (ix2 r k) = (V c main_arg1 : S5632x2048.Idx → BitVec 32) (ix2 R k) := by
  have hi := idx_w1 t
  unfold iblk0
  rw [View.read_apply]
  refine congrArg (V c main_arg1 : S5632x2048.Idx → BitVec 32) (funext fun a => Fin.ext ?_)
  match a with
  | ⟨0, _⟩ => show win0_1.index t (0 : Fin 2) * 512 + 1 * r.val = R.val; rw [hi.1, hR]; omega
  | ⟨1, _⟩ => show win0_1.index t (1 : Fin 2) * 2048 + 1 * k.val = k.val; rw [hi.2]; omega

/-- The same for the gate scales, -/
theorem blk_gs (c : Dev nD) (t : Fin cfg0.N) (r : Fin 512) (R : Fin 5632) (hR : R.val = t.val * 512 + r.val) (g : Fin 32) :
    (iblk0 V c 2 t : S512x32.Idx → EReal) (ix2 r g) = (V c main_arg2 : S5632x32.Idx → EReal) (ix2 R g) := by
  have hi := idx_w2 t
  unfold iblk0
  rw [View.read_apply]
  refine congrArg (V c main_arg2 : S5632x32.Idx → EReal) (funext fun a => Fin.ext ?_)
  match a with
  | ⟨0, _⟩ => show win0_2.index t (0 : Fin 2) * 512 + 1 * r.val = R.val; rw [hi.1, hR]; omega
  | ⟨1, _⟩ => show win0_2.index t (1 : Fin 2) * 32 + 1 * g.val = g.val; rw [hi.2]; omega

/-- the gate zero points, -/
theorem blk_gz (c : Dev nD) (t : Fin cfg0.N) (r : Fin 512) (R : Fin 5632) (hR : R.val = t.val * 512 + r.val) (g : Fin 32) :
    (iblk0 V c 3 t : S512x32.Idx → EReal) (ix2 r g) = (V c main_arg3 : S5632x32.Idx → EReal) (ix2 R g) := by
  have hi := idx_w3 t
  unfold iblk0
  rw [View.read_apply]
  refine congrArg (V c main_arg3 : S5632x32.Idx → EReal) (funext fun a => Fin.ext ?_)
  match a with
  | ⟨0, _⟩ => show win0_3.index t (0 : Fin 2) * 512 + 1 * r.val = R.val; rw [hi.1, hR]; omega
  | ⟨1, _⟩ => show win0_3.index t (1 : Fin 2) * 32 + 1 * g.val = g.val; rw [hi.2]; omega

/-- the up codes, -/
theorem blk_uq (c : Dev nD) (t : Fin cfg0.N) (r : Fin 512) (R : Fin 5632) (hR : R.val = t.val * 512 + r.val) (k : Fin 2048) :
    (iblk0 V c 4 t : S512x2048.Idx → BitVec 32) (ix2 r k) = (V c main_arg4 : S5632x2048.Idx → BitVec 32) (ix2 R k) := by
  have hi := idx_w4 t
  unfold iblk0
  rw [View.read_apply]
  refine congrArg (V c main_arg4 : S5632x2048.Idx → BitVec 32) (funext fun a => Fin.ext ?_)
  match a with
  | ⟨0, _⟩ => show win0_4.index t (0 : Fin 2) * 512 + 1 * r.val = R.val; rw [hi.1, hR]; omega
  | ⟨1, _⟩ => show win0_4.index t (1 : Fin 2) * 2048 + 1 * k.val = k.val; rw [hi.2]; omega

/-- the up scales, -/
theorem blk_us (c : Dev nD) (t : Fin cfg0.N) (r : Fin 512) (R : Fin 5632) (hR : R.val = t.val * 512 + r.val) (g : Fin 32) :
    (iblk0 V c 5 t : S512x32.Idx → EReal) (ix2 r g) = (V c main_arg5 : S5632x32.Idx → EReal) (ix2 R g) := by
  have hi := idx_w5 t
  unfold iblk0
  rw [View.read_apply]
  refine congrArg (V c main_arg5 : S5632x32.Idx → EReal) (funext fun a => Fin.ext ?_)
  match a with
  | ⟨0, _⟩ => show win0_5.index t (0 : Fin 2) * 512 + 1 * r.val = R.val; rw [hi.1, hR]; omega
  | ⟨1, _⟩ => show win0_5.index t (1 : Fin 2) * 32 + 1 * g.val = g.val; rw [hi.2]; omega

/-- and the up zero points. -/
theorem blk_uz (c : Dev nD) (t : Fin cfg0.N) (r : Fin 512) (R : Fin 5632) (hR : R.val = t.val * 512 + r.val) (g : Fin 32) :
    (iblk0 V c 6 t : S512x32.Idx → EReal) (ix2 r g) = (V c main_arg6 : S5632x32.Idx → EReal) (ix2 R g) := by
  have hi := idx_w6 t
  unfold iblk0
  rw [View.read_apply]
  refine congrArg (V c main_arg6 : S5632x32.Idx → EReal) (funext fun a => Fin.ext ?_)
  match a with
  | ⟨0, _⟩ => show win0_6.index t (0 : Fin 2) * 512 + 1 * r.val = R.val; rw [hi.1, hR]; omega
  | ⟨1, _⟩ => show win0_6.index t (1 : Fin 2) * 32 + 1 * g.val = g.val; rw [hi.2]; omega

/-! ## The hidden array -/

/-- The specification's hidden array of the arrays the call finds. -/
abbrev harr (c : Dev nD) : S32x5632.Idx → EReal :=
  Cert.Spec.hiddenArr (n := 32) (a := 5632) (g := 32) (c := 2048) rfl
    (V c main_arg0 : S32x2048.Idx → EReal) (V c main_arg1 : S5632x2048.Idx → BitVec 32)
    (V c main_arg2 : S5632x32.Idx → EReal) (V c main_arg3 : S5632x32.Idx → EReal)
    (V c main_arg4 : S5632x2048.Idx → BitVec 32) (V c main_arg5 : S5632x32.Idx → EReal) (V c main_arg6 : S5632x32.Idx → EReal)

/-- Where entry `(p, r)` of point `t`'s output block lands: row `p`, column `512 t + r`. -/
theorem emb_out (t : Fin cfg0.N) (p : Fin 32) (r : Fin 512) :
    ∃ (P : Fin 32) (R : Fin 5632), (((cfg0.win 7).blk t).view.emb (ix2 p r) : S32x5632.Idx) = ix2 P R
      ∧ P.val = p.val ∧ R.val = t.val * 512 + r.val := by
  have hi := idx_w7 t
  refine ⟨((cfg0.win 7).blk t).view.emb (ix2 p r) 0, ((cfg0.win 7).blk t).view.emb (ix2 p r) 1, eq_ix2 _, ?_, ?_⟩
  · show win0_7.index t (0 : Fin 2) * 32 + 1 * p.val = p.val; rw [hi.1]; omega
  · show win0_7.index t (1 : Fin 2) * 512 + 1 * r.val = t.val * 512 + r.val; rw [hi.2]; omega

/-- What point `t` writes back is block `t` of the hidden array. -/
theorem flushed_eq (c : Dev nD) (t : Fin cfg0.N) :
    (dat0 V c).flushed 7 t = ((cfg0.win 7).blk t).view.read (Elt Ideal) (harr V c) := by
  show (cfg0.win 7).cut (grid0.coords t) ((dat0 V c).after 7 t) = _
  rw [after0_7]
  unfold out0_7
  rw [View.canon_unit_zero hz]
  simp only [View.ld_unit_zero (S := S32x2048) hz, View.ld_unit_zero (S := S512x2048) hz, View.ld_unit_zero (S := S512x32) hz]
  refine funext fun (y : S32x512.Idx) => ?_
  obtain ⟨p, r, rfl⟩ : ∃ (p : Fin 32) (r : Fin 512), y = ix2 p r := ⟨y 0, y 1, eq_ix2 y⟩
  obtain ⟨P, R, hPR, hP, hR⟩ := emb_out t p r
  rw [View.read_apply, hPR]
  refine (Cert.KernelIdeal.Blocks.pay0_apply (iblk0 V c 0 t) (iblk0 V c 1 t) (iblk0 V c 2 t) (iblk0 V c 3 t) (iblk0 V c 4 t) (iblk0 V c 5 t) (iblk0 V c 6 t) p r).trans ?_
  exact Cert.Spec.hiddenAt_congr (n := 32) (n' := 32) (a := 512) (a' := 5632) (g := 32) (c := 2048) rfl
    (iblk0 V c 0 t) (V c main_arg0 : S32x2048.Idx → EReal)
    (iblk0 V c 1 t) (iblk0 V c 2 t) (iblk0 V c 3 t) (iblk0 V c 4 t) (iblk0 V c 5 t) (iblk0 V c 6 t)
    (V c main_arg1 : S5632x2048.Idx → BitVec 32) (V c main_arg2 : S5632x32.Idx → EReal) (V c main_arg3 : S5632x32.Idx → EReal)
    (V c main_arg4 : S5632x2048.Idx → BitVec 32) (V c main_arg5 : S5632x32.Idx → EReal) (V c main_arg6 : S5632x32.Idx → EReal)
    p P r R
    (fun k => blk_x V c t p P hP k) (fun k => blk_gq V c t r R hR k) (fun g => blk_gs V c t r R hR g) (fun g => blk_gz V c t r R hR g)
    (fun k => blk_uq V c t r R hR k) (fun g => blk_us V c t r R hR g) (fun g => blk_uz V c t r R hR g)

/-- An index of the hidden array lies in point `t`'s block iff each coordinate lies in the block's range. -/
theorem mem_blk (t : Fin cfg0.N) (i : S32x5632.Idx) :
    i ∈ ((cfg0.win 7).blk t).view.set ↔ ∀ a : Fin 2, win0_7.index t a * S32x512.size a ≤ (i a).val ∧ (i a).val < win0_7.index t a * S32x512.size a + S32x512.size a := by
  show i ∈ ((View.whole main_v0).slice (win0_7.rect t)).set ↔ _
  rw [View.set_slice_whole, Rect.mem_set_unit]
  exact Iff.rfl

/-- Every index is in the block of the point that owns its column. -/
theorem cover (i : S32x5632.Idx) :
    ∃ t : Fin cfg0.N, (cfg0.win 7).flush t = true ∧ i ∈ ((cfg0.win 7).blk t).view.set := by
  have h0 : (i 0).val < 32 := (i 0).isLt
  have h1 : (i 1).val < 5632 := (i 1).isLt
  have hN : cfg0.N = 11 := N_0
  refine ⟨⟨(i 1).val / 512, by rw [hN]; omega⟩, flush0_7 _, ?_⟩
  have hi := idx_w7 ⟨(i 1).val / 512, by rw [hN]; omega⟩
  rw [mem_blk]
  intro a
  match a with
  | ⟨0, _⟩ =>
    show win0_7.index _ (0 : Fin 2) * 32 ≤ (i 0).val ∧ (i 0).val < win0_7.index _ (0 : Fin 2) * 32 + 32
    rw [hi.1]; omega
  | ⟨1, _⟩ =>
    show win0_7.index _ (1 : Fin 2) * 512 ≤ (i 1).val ∧ (i 1).val < win0_7.index _ (1 : Fin 2) * 512 + 512
    rw [hi.2]; show (i 1).val / 512 * 512 ≤ (i 1).val ∧ (i 1).val < (i 1).val / 512 * 512 + 512; omega

/-- After the call the hidden array is the specification's. -/
theorem final (c : Dev nD) : (dat0 V c).arrAt 7 cfg0.N = harr V c :=
  (dat0 V c).arrAt_eq_of_cover 7 (harr V c) (fun t _ => flushed_eq V c t) cover

end Cert.KernelIdeal.Region0

end
-- ==== Proof.KernelValue1.lean ====
/-
  The result array after the second pallas_call, entry by entry, from whatever contents the call finds.
  Grid point `t` of 8 holds the whole hidden array and rows `256 t … 256 t + 255` of the down codes, scales and zero
  points, and writes back columns `256 t … 256 t + 255` of the result: entry `(p, r)` of its block is the hidden
  row `p` against the dequantized down row `256 t + r`. The eight column blocks tile the result.
-/
import proofs.«152139_j16587163697466_1_alg».proof.Proof.Gen.KernelIdeal.Frame
import proofs.«152139_j16587163697466_1_alg».proof.Proof.KernelBlocks
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Where each window's block sits, decided over the grid -/

theorem idx_w0 : ∀ t : Fin cfg1.N, win1_0.index t (0 : Fin 2) = 0 ∧ win1_0.index t (1 : Fin 2) = 0 :=
  (by decide +kernel : ∀ t : Fin grid1.N, _)
theorem idx_w1 : ∀ t : Fin cfg1.N, win1_1.index t (0 : Fin 2) = t.val ∧ win1_1.index t (1 : Fin 2) = 0 :=
  (by decide +kernel : ∀ t : Fin grid1.N, _)
theorem idx_w2 : ∀ t : Fin cfg1.N, win1_2.index t (0 : Fin 2) = t.val ∧ win1_2.index t (1 : Fin 2) = 0 :=
  (by decide +kernel : ∀ t : Fin grid1.N, _)
theorem idx_w3 : ∀ t : Fin cfg1.N, win1_3.index t (0 : Fin 2) = t.val ∧ win1_3.index t (1 : Fin 2) = 0 :=
  (by decide +kernel : ∀ t : Fin grid1.N, _)
theorem idx_w4 : ∀ t : Fin cfg1.N, win1_4.index t (0 : Fin 2) = 0 ∧ win1_4.index t (1 : Fin 2) = t.val :=
  (by decide +kernel : ∀ t : Fin grid1.N, _)

/-! ## Each input block as rows of its array -/

/-- The block of the hidden array is all of it. -/
theorem blk_h (c : Dev nD) (t : Fin cfg1.N) (p P : Fin 32) (hP : P.val = p.val) (k : Fin 5632) :
    (iblk1 V c 0 t : S32x5632.Idx → EReal) (ix2 p k) = (V c main_v0 : S32x5632.Idx → EReal) (ix2 P k) := by
  have hi := idx_w0 t
  unfold iblk1
  rw [View.read_apply]
  refine congrArg (V c main_v0 : S32x5632.Idx → EReal) (funext fun a => Fin.ext ?_)
  match a with
  | ⟨0, _⟩ => show win1_0.index t (0 : Fin 2) * 32 + 1 * p.val = P.val; rw [hi.1, hP]; omega
  | ⟨1, _⟩ => show win1_0.index t (1 : Fin 2) * 5632 + 1 * k.val = k.val; rw [hi.2]; omega

/-- Row `r` of the down codes' block is row `256 t + r` of the down codes. -/
theorem blk_dq (c : Dev nD) (t : Fin cfg1.N) (r : Fin 256) (R : Fin 2048) (hR : R.val = t.val * 256 + r.val) (k : Fin 5632) :
    (iblk1 V c 1 t : S256x5632.Idx → BitVec 32) (ix2 r k) = (V c main_arg7 : S2048x5632.Idx → BitVec 32) (ix2 R k) := by
  have hi := idx_w1 t
  unfold iblk1
  rw [View.read_apply]
  refine congrArg (V c main_arg7 : S2048x5632.Idx → BitVec 32) (funext fun a => Fin.ext ?_)
  match a with
  | ⟨0, _⟩ => show win1_1.index t (0 : Fin 2) * 256 + 1 * r.val = R.val; rw [hi.1, hR]; omega
  | ⟨1, _⟩ => show win1_1.index t (1 : Fin 2) * 5632 + 1 * k.val = k.val; rw [hi.2]; omega

/-- The same for the down scales -/
theorem blk_ds (c : Dev nD) (t : Fin cfg1.N) (r : Fin 256) (R : Fin 2048) (hR : R.val = t.val * 256 + r.val) (g : Fin 88) :
    (iblk1 V c 2 t : S256x88.Idx → EReal) (ix2 r g) = (V c main_arg8 : S2048x88.Idx → EReal) (ix2 R g) := by
  have hi := idx_w2 t
  unfold iblk1
  rw [View.read_apply]
  refine congrArg (V c main_arg8 : S2048x88.Idx → EReal) (funext fun a => Fin.ext ?_)
  match a with
  | ⟨0, _⟩ => show win1_2.index t (0 : Fin 2) * 256 + 1 * r.val = R.val; rw [hi.1, hR]; omega
  | ⟨1, _⟩ => show win1_2.index t (1 : Fin 2) * 88 + 1 * g.val = g.val; rw [hi.2]; omega

/-- and the down zero points. -/
theorem blk_dz (c : Dev nD) (t : Fin cfg1.N) (r : Fin 256) (R : Fin 2048) (hR : R.val = t.val * 256 + r.val) (g : Fin 88) :
    (iblk1 V c 3 t : S256x88.Idx → EReal) (ix2 r g) = (V c main_arg9 : S2048x88.Idx → EReal) (ix2 R g) := by
  have hi := idx_w3 t
  unfold iblk1
  rw [View.read_apply]
  refine congrArg (V c main_arg9 : S2048x88.Idx → EReal) (funext fun a => Fin.ext ?_)
  match a with
  | ⟨0, _⟩ => show win1_3.index t (0 : Fin 2) * 256 + 1 * r.val = R.val; rw [hi.1, hR]; omega
  | ⟨1, _⟩ => show win1_3.index t (1 : Fin 2) * 88 + 1 * g.val = g.val; rw [hi.2]; omega

/-! ## The result array -/

/-- The specification's down projection of the hidden array the call finds. -/
abbrev oarr (c : Dev nD) : S32x2048.Idx → EReal :=
  Cert.Spec.downArr (n := 32) (a := 2048) (g := 88) (c := 5632) rfl
    (V c main_v0 : S32x5632.Idx → EReal) (V c main_arg7 : S2048x5632.Idx → BitVec 32)
    (V c main_arg8 : S2048x88.Idx → EReal) (V c main_arg9 : S2048x88.Idx → EReal)

/-- Where entry `(p, r)` of point `t`'s output block lands: row `p`, column `256 t + r`. -/
theorem emb_out (t : Fin cfg1.N) (p : Fin 32) (r : Fin 256) :
    ∃ (P : Fin 32) (R : Fin 2048), (((cfg1.win 4).blk t).view.emb (ix2 p r) : S32x2048.Idx) = ix2 P R
      ∧ P.val = p.val ∧ R.val = t.val * 256 + r.val := by
  have hi := idx_w4 t
  refine ⟨((cfg1.win 4).blk t).view.emb (ix2 p r) 0, ((cfg1.win 4).blk t).view.emb (ix2 p r) 1, eq_ix2 _, ?_, ?_⟩
  · show win1_4.index t (0 : Fin 2) * 32 + 1 * p.val = p.val; rw [hi.1]; omega
  · show win1_4.index t (1 : Fin 2) * 256 + 1 * r.val = t.val * 256 + r.val; rw [hi.2]; omega

/-- What point `t` writes back is block `t` of the result array. -/
theorem flushed_eq (c : Dev nD) (t : Fin cfg1.N) :
    (dat1 V c).flushed 4 t = ((cfg1.win 4).blk t).view.read (Elt Ideal) (oarr V c) := by
  show (cfg1.win 4).cut (grid1.coords t) ((dat1 V c).after 4 t) = _
  rw [after1_4]
  unfold out1_4
  rw [View.canon_unit_zero hz]
  simp only [View.ld_unit_zero (S := S32x5632) hz, View.ld_unit_zero (S := S256x5632) hz, View.ld_unit_zero (S := S256x88) hz]
  refine funext fun (y : S32x256.Idx) => ?_
  obtain ⟨p, r, rfl⟩ : ∃ (p : Fin 32) (r : Fin 256), y = ix2 p r := ⟨y 0, y 1, eq_ix2 y⟩
  obtain ⟨P, R, hPR, hP, hR⟩ := emb_out t p r
  rw [View.read_apply, hPR]
  refine (Cert.KernelIdeal.Blocks.pay1_apply (iblk1 V c 0 t) (iblk1 V c 1 t) (iblk1 V c 2 t) (iblk1 V c 3 t) p r).trans ?_
  exact Cert.Spec.rowDot_congr (n := 32) (n' := 32) (a := 256) (a' := 2048) (g := 88) (c := 5632) rfl
    (iblk1 V c 0 t) (V c main_v0 : S32x5632.Idx → EReal)
    (iblk1 V c 1 t) (iblk1 V c 2 t) (iblk1 V c 3 t)
    (V c main_arg7 : S2048x5632.Idx → BitVec 32) (V c main_arg8 : S2048x88.Idx → EReal) (V c main_arg9 : S2048x88.Idx → EReal)
    p P r R
    (fun k => blk_h V c t p P hP k) (fun k => blk_dq V c t r R hR k) (fun g => blk_ds V c t r R hR g) (fun g => blk_dz V c t r R hR g)

/-- An index of the result lies in point `t`'s block iff each coordinate lies in the block's range. -/
theorem mem_blk (t : Fin cfg1.N) (i : S32x2048.Idx) :
    i ∈ ((cfg1.win 4).blk t).view.set ↔ ∀ a : Fin 2, win1_4.index t a * S32x256.size a ≤ (i a).val ∧ (i a).val < win1_4.index t a * S32x256.size a + S32x256.size a := by
  show i ∈ ((View.whole main_v1).slice (win1_4.rect t)).set ↔ _
  rw [View.set_slice_whole, Rect.mem_set_unit]
  exact Iff.rfl

/-- Every index is in the block of the point that owns its column. -/
theorem cover (i : S32x2048.Idx) :
    ∃ t : Fin cfg1.N, (cfg1.win 4).flush t = true ∧ i ∈ ((cfg1.win 4).blk t).view.set := by
  have h0 : (i 0).val < 32 := (i 0).isLt
  have h1 : (i 1).val < 2048 := (i 1).isLt
  have hN : cfg1.N = 8 := N_1
  refine ⟨⟨(i 1).val / 256, by rw [hN]; omega⟩, flush1_4 _, ?_⟩
  have hi := idx_w4 ⟨(i 1).val / 256, by rw [hN]; omega⟩
  rw [mem_blk]
  intro a
  match a with
  | ⟨0, _⟩ =>
    show win1_4.index _ (0 : Fin 2) * 32 ≤ (i 0).val ∧ (i 0).val < win1_4.index _ (0 : Fin 2) * 32 + 32
    rw [hi.1]; omega
  | ⟨1, _⟩ =>
    show win1_4.index _ (1 : Fin 2) * 256 ≤ (i 1).val ∧ (i 1).val < win1_4.index _ (1 : Fin 2) * 256 + 256
    rw [hi.2]; show (i 1).val / 256 * 256 ≤ (i 1).val ∧ (i 1).val < (i 1).val / 256 * 256 + 256; omega

/-- After the call the result array is the down projection of the hidden array it found. -/
theorem final (c : Dev nD) : (dat1 V c).arrAt 4 cfg1.N = oarr V c :=
  (dat1 V c).arrAt_eq_of_cover 4 (oarr V c) (fun t _ => flushed_eq V c t) cover

end Cert.KernelIdeal.Region1

end
-- ==== Proof.KernelWhole.lean ====
/-
  The two pallas_calls joined. The second call finds the hidden array the first one left and the down tables as
  launched (the first call writes nothing but the hidden array), so the result array is one function of the launch
  memory: the down projection of the specification's hidden array.
-/
import proofs.«152139_j16587163697466_1_alg».proof.Proof.KernelRun
import proofs.«152139_j16587163697466_1_alg».proof.Proof.KernelValue0
import proofs.«152139_j16587163697466_1_alg».proof.Proof.KernelValue1

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The hidden array of the launch memory. -/
abbrev hidden (c : Dev nD) : S32x5632.Idx → EReal :=
  Cert.Spec.hiddenArr (n := 32) (a := 5632) (g := 32) (c := 2048) rfl
    (m ((c.tc : Thread nD τ).loc main_arg0) : S32x2048.Idx → EReal) (m ((c.tc : Thread nD τ).loc main_arg1) : S5632x2048.Idx → BitVec 32)
    (m ((c.tc : Thread nD τ).loc main_arg2) : S5632x32.Idx → EReal) (m ((c.tc : Thread nD τ).loc main_arg3) : S5632x32.Idx → EReal)
    (m ((c.tc : Thread nD τ).loc main_arg4) : S5632x2048.Idx → BitVec 32)
    (m ((c.tc : Thread nD τ).loc main_arg5) : S5632x32.Idx → EReal) (m ((c.tc : Thread nD τ).loc main_arg6) : S5632x32.Idx → EReal)

/-- The result array of the launch memory. -/
abbrev result (c : Dev nD) : S32x2048.Idx → EReal :=
  Cert.Spec.downArr (n := 32) (a := 2048) (g := 88) (c := 5632) rfl (hidden m c)
    (m ((c.tc : Thread nD τ).loc main_arg7) : S2048x5632.Idx → BitVec 32)
    (m ((c.tc : Thread nD τ).loc main_arg8) : S2048x88.Idx → EReal) (m ((c.tc : Thread nD τ).loc main_arg9) : S2048x88.Idx → EReal)

/-- What the second call finds in the hidden array's buffer is what the first call's write-backs left there. -/
theorem found_hidden (c : Dev nD) : (V1 (F := Ideal) m ρ c main_v0 : S32x5632.Idx → EReal) = hidden m c :=
  (W1_arr (F := Ideal) m ρ c 7).trans (Cert.KernelIdeal.Region0.final (V0 (F := Ideal) m ρ) c)

/-- The down tables are as launched when the second call starts. -/
theorem found_arg7 (c : Dev nD) : (V1 (F := Ideal) m ρ c main_arg7 : S2048x5632.Idx → BitVec 32) = m ((c.tc : Thread nD τ).loc main_arg7) :=
  W1_of_ne (F := Ideal) m ρ c main_arg7 (by decide)
theorem found_arg8 (c : Dev nD) : (V1 (F := Ideal) m ρ c main_arg8 : S2048x88.Idx → EReal) = m ((c.tc : Thread nD τ).loc main_arg8) :=
  W1_of_ne (F := Ideal) m ρ c main_arg8 (by decide)
theorem found_arg9 (c : Dev nD) : (V1 (F := Ideal) m ρ c main_arg9 : S2048x88.Idx → EReal) = m ((c.tc : Thread nD τ).loc main_arg9) :=
  W1_of_ne (F := Ideal) m ρ c main_arg9 (by decide)

/-- So the second call's write-backs leave the result array at `result`. -/
theorem result_eq (c : Dev nD) : (dat1 (V1 (F := Ideal) m ρ) c).arrAt 4 cfg1.N = result m c := by
  rw [Cert.KernelIdeal.Region1.final (V1 (F := Ideal) m ρ) c]
  show Cert.Spec.downArr (n := 32) (a := 2048) (g := 88) (c := 5632) rfl
      (V1 (F := Ideal) m ρ c main_v0 : S32x5632.Idx → EReal) (V1 (F := Ideal) m ρ c main_arg7 : S2048x5632.Idx → BitVec 32)
      (V1 (F := Ideal) m ρ c main_arg8 : S2048x88.Idx → EReal) (V1 (F := Ideal) m ρ c main_arg9 : S2048x88.Idx → EReal) = result m c
  rw [found_hidden, found_arg7, found_arg8, found_arg9]

/-- The run: the result array at `result` of the launch memory, the arguments unchanged. -/
theorem run : θ_run (defs (F := Ideal)) (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c => ⟨(h c).1.trans (result_eq m ρ c), (h c).2⟩)
    (Cert.KernelIdeal.GenP.run_v1 (F := Ideal) m ρ)

end Cert.KernelIdeal.Whole

end
-- ==== Proof.RefValue.lean ====
/-
  The reference, entry by entry. It dequantizes each whole weight matrix by reshaping the codes to
  `[rows, groups, 64]`, subtracting the zero points and multiplying by the scales (each repeated over its group) and
  reshaping back; transposes it; multiplies; applies `silu y = y * (1 / (1 + exp (-y)))`, which is `y` times the
  logistic function of `y`; and multiplies by the down weights. Read at an entry through the generated stage lemmas,
  each of its matrices is the specification's.
-/
import proofs.«152139_j16587163697466_1_alg».proof.Proof.Gen.ReferenceIdeal.Read
import proofs.«152139_j16587163697466_1_alg».proof.Proof.Dequant
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The three dequantized weight matrices -/

theorem gateW_apply (x1 : (⟨S5632x2048, .i32⟩ : BufTy).Contents (Elt Ideal)) (x2 x3 : (⟨S5632x32, .f32⟩ : BufTy).Contents (Elt Ideal))
    (r : Fin 5632) (k : Fin 2048) :
    val_main_v8 (F := Ideal) x1 x2 x3 (ix2 r k)
      = Cert.Spec.deqAt (a := 5632) (g := 32) (c := 2048) rfl x1 x2 x3 r k :=
  Cert.Dequant.deq_host_apply (a := 5632) (g := 32) (c := 2048) rfl x1 x2 x3 _ _ _ _ r k

theorem upW_apply (x4 : (⟨S5632x2048, .i32⟩ : BufTy).Contents (Elt Ideal)) (x5 x6 : (⟨S5632x32, .f32⟩ : BufTy).Contents (Elt Ideal))
    (r : Fin 5632) (k : Fin 2048) :
    val_main_v17 (F := Ideal) x4 x5 x6 (ix2 r k)
      = Cert.Spec.deqAt (a := 5632) (g := 32) (c := 2048) rfl x4 x5 x6 r k :=
  Cert.Dequant.deq_host_apply (a := 5632) (g := 32) (c := 2048) rfl x4 x5 x6 _ _ _ _ r k

theorem downW_apply (x7 : (⟨S2048x5632, .i32⟩ : BufTy).Contents (Elt Ideal)) (x8 x9 : (⟨S2048x88, .f32⟩ : BufTy).Contents (Elt Ideal))
    (r : Fin 2048) (k : Fin 5632) :
    val_main_v26 (F := Ideal) x7 x8 x9 (ix2 r k)
      = Cert.Spec.deqAt (a := 2048) (g := 88) (c := 5632) rfl x7 x8 x9 r k :=
  Cert.Dequant.deq_host_apply (a := 2048) (g := 88) (c := 5632) rfl x7 x8 x9 _ _ _ _ r k

/-! ## The products with `x` -/

theorem gate_dot (x0 : (⟨S32x2048, .f32⟩ : BufTy).Contents (Elt Ideal)) (x1 : (⟨S5632x2048, .i32⟩ : BufTy).Contents (Elt Ideal))
    (x2 x3 : (⟨S5632x32, .f32⟩ : BufTy).Contents (Elt Ideal)) (t : Fin 32) (j : Fin 5632) :
    val_main_v28 (F := Ideal) x0 x1 x2 x3 (ix2 t j)
      = Cert.Spec.rowDot (n := 32) (a := 5632) (g := 32) (c := 2048) rfl x0 x1 x2 x3 t j := by
  rw [val_main_v28_apply]
  unfold Cert.Spec.rowDot
  refine Finset.sum_congr rfl fun k _ => ?_
  have el : lidx_main_v28 (ix2 t j) k = ix2 t k := funext fun a => Fin.ext (by
    match a with
    | ⟨0, _⟩ => rfl
    | ⟨1, _⟩ => rfl)
  have er : idx_main_v27 (ridx_main_v28 (ix2 t j) k) = ix2 j k := funext fun a => Fin.ext (by
    match a with
    | ⟨0, _⟩ => rfl
    | ⟨1, _⟩ => rfl)
  rw [val_main_v27_apply, el, er, gateW_apply]

theorem up_dot (x0 : (⟨S32x2048, .f32⟩ : BufTy).Contents (Elt Ideal)) (x4 : (⟨S5632x2048, .i32⟩ : BufTy).Contents (Elt Ideal))
    (x5 x6 : (⟨S5632x32, .f32⟩ : BufTy).Contents (Elt Ideal)) (t : Fin 32) (j : Fin 5632) :
    val_main_v31 (F := Ideal) x0 x4 x5 x6 (ix2 t j)
      = Cert.Spec.rowDot (n := 32) (a := 5632) (g := 32) (c := 2048) rfl x0 x4 x5 x6 t j := by
  rw [val_main_v31_apply]
  unfold Cert.Spec.rowDot
  refine Finset.sum_congr rfl fun k _ => ?_
  have el : lidx_main_v31 (ix2 t j) k = ix2 t k := funext fun a => Fin.ext (by
    match a with
    | ⟨0, _⟩ => rfl
    | ⟨1, _⟩ => rfl)
  have er : idx_main_v30 (ridx_main_v31 (ix2 t j) k) = ix2 j k := funext fun a => Fin.ext (by
    match a with
    | ⟨0, _⟩ => rfl
    | ⟨1, _⟩ => rfl)
  rw [val_main_v30_apply, el, er, upW_apply]

/-! ## The hidden entry: the outlined `silu` is `y` times the logistic function of `y` -/

theorem hidden_apply (x0 : (⟨S32x2048, .f32⟩ : BufTy).Contents (Elt Ideal)) (x1 : (⟨S5632x2048, .i32⟩ : BufTy).Contents (Elt Ideal))
    (x2 x3 : (⟨S5632x32, .f32⟩ : BufTy).Contents (Elt Ideal)) (x4 : (⟨S5632x2048, .i32⟩ : BufTy).Contents (Elt Ideal))
    (x5 x6 : (⟨S5632x32, .f32⟩ : BufTy).Contents (Elt Ideal)) (t : Fin 32) (j : Fin 5632) :
    val_main_v32 (F := Ideal) x0 x1 x2 x3 x4 x5 x6 (ix2 t j)
      = Cert.Spec.hiddenAt (n := 32) (a := 5632) (g := 32) (c := 2048) rfl x0 x1 x2 x3 x4 x5 x6 t j := by
  rw [val_main_v32_apply, val_main_v29_apply, val_main_call0_v5_apply, val_main_call0_v4_apply,
    val_main_call0_cst_0_apply, val_main_call0_v3_apply, val_main_call0_v2_apply, val_main_call0_cst_apply,
    val_main_call0_v1_apply, val_main_call0_v0_apply, gate_dot, up_dot]
  unfold Cert.Spec.hiddenAt Ideal.logistic
  show (_ * Ideal.div (Ideal.ofBits .f32 0x3F800000#32) (Ideal.ofBits .f32 0x3F800000#32 + Ideal.exp (-_))) * _ = _
  rw [Ideal.ofBits_one_f32]

/-! ## The result -/

/-- The reference's result is the down projection of the hidden array, entry by entry. -/
theorem result_eq (x0 : (⟨S32x2048, .f32⟩ : BufTy).Contents (Elt Ideal)) (x1 : (⟨S5632x2048, .i32⟩ : BufTy).Contents (Elt Ideal))
    (x2 x3 : (⟨S5632x32, .f32⟩ : BufTy).Contents (Elt Ideal)) (x4 : (⟨S5632x2048, .i32⟩ : BufTy).Contents (Elt Ideal))
    (x5 x6 : (⟨S5632x32, .f32⟩ : BufTy).Contents (Elt Ideal)) (x7 : (⟨S2048x5632, .i32⟩ : BufTy).Contents (Elt Ideal))
    (x8 x9 : (⟨S2048x88, .f32⟩ : BufTy).Contents (Elt Ideal)) :
    val_main_v34 (F := Ideal) x0 x1 x2 x3 x4 x5 x6 x7 x8 x9
      = Cert.Spec.downArr (n := 32) (a := 2048) (g := 88) (c := 5632) rfl
          (Cert.Spec.hiddenArr (n := 32) (a := 5632) (g := 32) (c := 2048) rfl x0 x1 x2 x3 x4 x5 x6) x7 x8 x9 := by
  funext i
  obtain ⟨t, n, rfl⟩ : ∃ (t : Fin 32) (n : Fin 2048), i = ix2 t n := ⟨i 0, i 1, eq_ix2 i⟩
  rw [val_main_v34_apply]
  unfold Cert.Spec.downArr Cert.Spec.rowDot
  refine Finset.sum_congr rfl fun k _ => ?_
  have el : lidx_main_v34 (ix2 t n) k = ix2 t k := funext fun a => Fin.ext (by
    match a with
    | ⟨0, _⟩ => rfl
    | ⟨1, _⟩ => rfl)
  have er : idx_main_v33 (ridx_main_v34 (ix2 t n) k) = ix2 n k := funext fun a => Fin.ext (by
    match a with
    | ⟨0, _⟩ => rfl
    | ⟨1, _⟩ => rfl)
  rw [val_main_v33_apply, el, er, downW_apply, hidden_apply]
  rfl

end Cert.ReferenceIdeal.RefValue

end
-- ==== Proof.lean ====
/-
  A SwiGLU feed-forward layer with group-quantized weights, as two pallas_calls, against its jnp reference, over the
  extended reals. Each weight is `(code - zero point) * scale` with one zero point and one scale per 64 columns.
  The first call computes the hidden array `silu (x · gateᵀ) * (x · upᵀ)` in blocks of 512 columns, the second the
  result `hidden · downᵀ` in blocks of 256 columns; the reference dequantizes the three whole matrices, transposes
  and multiplies. Both sides compute, entry by entry, the same sums of the same products in the same grouping:
  `silu y` is `y` times the logistic function of `y` on both sides, a change of float format is the identity, and
  a row product does not depend on how the rows are cut into blocks. No law beyond reindexing the sums is used, so
  the precondition is never opened.
-/
import proofs.«152139_j16587163697466_1_alg».proof.Defs
import proofs.«152139_j16587163697466_1_alg».proof.Proof.Gen.Kernel
import proofs.«152139_j16587163697466_1_alg».proof.Proof.Gen.Kernel.Skeleton
import proofs.«152139_j16587163697466_1_alg».proof.Proof.Gen.Kernel.Launch
import proofs.«152139_j16587163697466_1_alg».proof.Proof.Gen.Kernel.Points
import proofs.«152139_j16587163697466_1_alg».proof.Proof.Gen.Kernel.Frame
import proofs.«152139_j16587163697466_1_alg».proof.Proof.Gen.KernelIdeal
import proofs.«152139_j16587163697466_1_alg».proof.Proof.Gen.KernelIdeal.Skeleton
import proofs.«152139_j16587163697466_1_alg».proof.Proof.Gen.KernelIdeal.Launch
import proofs.«152139_j16587163697466_1_alg».proof.Proof.Gen.KernelIdeal.Points
import proofs.«152139_j16587163697466_1_alg».proof.Proof.Gen.KernelIdeal.Frame
import proofs.«152139_j16587163697466_1_alg».proof.Proof.Gen.ReferenceIdeal
import proofs.«152139_j16587163697466_1_alg».proof.Proof.Gen.ReferenceIdeal.Run
import proofs.«152139_j16587163697466_1_alg».proof.Proof.Gen.ReferenceIdeal.Read
import proofs.«152139_j16587163697466_1_alg».proof.Proof.Gen.Pre_finite_inputs
import proofs.«152139_j16587163697466_1_alg».proof.Proof.KernelWhole
import proofs.«152139_j16587163697466_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the down projection of the specification's hidden array of their (agreeing) arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v34_eq, Cert.ReferenceIdeal.RefValue.result_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
